-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S500000x128 : Shape := ⟨2, ![500000, 128]⟩
abbrev S64x128 : Shape := ⟨2, ![64, 128]⟩
abbrev S128 : Shape := ⟨1, ![128]⟩
abbrev S128x256 : Shape := ⟨2, ![128, 256]⟩
abbrev S128x128 : Shape := ⟨2, ![128, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg0 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg0 main_v34
  let main_c_13 : IVec S_ 1 := constantI S_ 1 1#1
  let main_v36 : IVec S_ 1 := (fun x v => Host.reduce IntOp.andi x v reducesTo_S100000_S_d0 h_S_) main_v35 main_c_13
  let main_v37 : IVec S_ 1 := andi main_v33 main_v36
  main_v37

def fn_part1 {F : FTy → Type} [FloatOps F] (main_arg0 : IVec S100000 32) (main_arg5 : FVec F S128 .f32) (main_arg6 : FVec F S128x128 .f32) (main_arg7 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_v33

def fn {F : FTy → Type} [FloatOps F] (main_arg0 : IVec S100000 32) (main_arg1 : FVec F S500000x128 .f32) (main_arg2 : FVec F S64x128 .f32) (main_arg3 : FVec F S128 .f32) (main_arg4 : FVec F S128x256 .f32) (main_arg5 : FVec F S128 .f32) (main_arg6 : FVec F S128x128 .f32) (main_arg7 : FVec F S128 .f32) : IVec S_ 1 :=
  let main_v0 : FVec F S500000x128 .f32 := Host.absf main_arg1
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg0 main_arg5 main_arg6 main_arg7 main_v13 main_v16
-- ==== Kernel.lean ====
abbrev S100000 : Shape := ⟨1, ![100000]⟩
abbrev S500000x128 : Shape := ⟨2, ![500000, 128]⟩
abbrev S64x128 : Shape := ⟨2, ![64, 128]⟩
abbrev S128 : Shape := ⟨1, ![128]⟩
abbrev S128x256 : Shape := ⟨2, ![128, 256]⟩
abbrev S128x128 : Shape := ⟨2, ![128, 128]⟩
abbrev S_ : Shape := ⟨0, ![]⟩
abbrev S106496 : Shape := ⟨1, ![106496]⟩
abbrev S106496x1 : Shape := ⟨2, ![106496, 1]⟩
abbrev S1 : Shape := ⟨1, ![1]⟩
abbrev S1x1 : Shape := ⟨2, ![1, 1]⟩
abbrev S106496x128 : Shape := ⟨2, ![106496, 128]⟩
abbrev S1x128 : Shape := ⟨2, ![1, 128]⟩
abbrev S8192x128 : Shape := ⟨2, ![8192, 128]⟩
abbrev S8192 : Shape := ⟨1, ![8192]⟩
abbrev S128x64 : Shape := ⟨2, ![128, 64]⟩
abbrev S8192x64 : Shape := ⟨2, ![8192, 64]⟩
abbrev S8192x1 : Shape := ⟨2, ![8192, 1]⟩

abbrev nBuf : Space → Nat
  | .hbm => 66
  | .vmem => 10
  | .smem => 0
  | _ => 0

abbrev bufTy : (tb : Table) → Fin (tcTables nBuf tb) → BufTy
  | .hbm, ⟨0, _⟩ => ⟨S100000, .i32⟩
  | .hbm, ⟨1, _⟩ => ⟨S500000x128, .f32⟩
  | .hbm, ⟨2, _⟩ => ⟨S64x128, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S_, .i32⟩
  | .hbm, ⟨14, _⟩ => ⟨S100000, .i32⟩
  | .hbm, ⟨15, _⟩ => ⟨S100000, .i32⟩
  | .hbm, ⟨16, _⟩ => ⟨S_, .i32⟩
  | .hbm, ⟨17, _⟩ => ⟨S_, .i32⟩
  | .hbm, ⟨18, _⟩ => ⟨S106496, .i32⟩
  | .hbm, ⟨19, _⟩ => ⟨S_, .i32⟩
  | .hbm, ⟨20, _⟩ => ⟨S106496, .i32⟩
  | .hbm, ⟨21, _⟩ => ⟨S106496, .i1⟩
  | .hbm, ⟨22, _⟩ => ⟨S_, .i32⟩
  | .hbm, ⟨23, _⟩ => ⟨S106496, .i32⟩
  | .hbm, ⟨24, _⟩ => ⟨S106496, .i32⟩
  | .hbm, ⟨25, _⟩ => ⟨S106496, .i32⟩
  | .hbm, ⟨26, _⟩ => ⟨S106496x1, .i32⟩
  | .hbm, ⟨27, _⟩ => ⟨S1, .i32⟩
  | .hbm, ⟨28, _⟩ => ⟨S_, .i32⟩
  | .hbm, ⟨29, _⟩ => ⟨S106496x1, .i32⟩
  | .hbm, ⟨30, _⟩ => ⟨S106496x1, .i1⟩
  | .hbm, ⟨31, _⟩ => ⟨S1x1, .i32⟩
  | .hbm, ⟨32, _⟩ => ⟨S106496x1, .i32⟩
  | .hbm, ⟨33, _⟩ => ⟨S106496x1, .i1⟩
  | .hbm, ⟨34, _⟩ => ⟨S106496x1, .i1⟩
  | .hbm, ⟨35, _⟩ => ⟨S_, .i1⟩
  | .hbm, ⟨36, _⟩ => ⟨S106496, .i1⟩
  | .hbm, ⟨37, _⟩ => ⟨S106496x128, .f32⟩
  | .hbm, ⟨38, _⟩ => ⟨S106496x128, .i1⟩
  | .hbm, ⟨39, _⟩ => ⟨S_, .f32⟩
  | .hbm, ⟨40, _⟩ => ⟨S106496x128, .f32⟩
  | .hbm, ⟨41, _⟩ => ⟨S106496x128, .f32⟩
  | .hbm, ⟨42, _⟩ => ⟨S1x128, .f32⟩
  | .hbm, ⟨43, _⟩ => ⟨S128x128, .f32⟩
  | .hbm, ⟨44, _⟩ => ⟨S128x128, .f32⟩
  | .hbm, ⟨45, _⟩ => ⟨S1x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S1x128, .f32⟩
  | .hbm, ⟨50, _⟩ => ⟨S1x128, .f32⟩
  | .hbm, ⟨51, _⟩ => ⟨S106496, .f32⟩
  | .hbm, ⟨52, _⟩ => ⟨S100000, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1, .f32⟩
  | .hbm, ⟨58, _⟩ => ⟨S100000, .f32⟩
  | .hbm, ⟨59, _⟩ => ⟨S100000, .f32⟩
  | .hbm, ⟨60, _⟩ => ⟨S100000, .f32⟩
  | .hbm, ⟨61, _⟩ => ⟨S_, .f32⟩
  | .hbm, ⟨62, _⟩ => ⟨S_, .f32⟩
  | .hbm, ⟨63, _⟩ => ⟨S1, .f32⟩
  | .hbm, ⟨64, _⟩ => ⟨S100000, .f32⟩
  | .hbm, ⟨65, _⟩ => ⟨S100000, .f32⟩
  | .local _ .vmem, ⟨0, _⟩ => ⟨S8192x128, .f32⟩
  | .local _ .vmem, ⟨1, _⟩ => ⟨S8192x128, .f32⟩
  | .local _ .vmem, ⟨2, _⟩ => ⟨S64x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S8192, .f32⟩
  | .local _ .vmem, ⟨9, _⟩ => ⟨S8192, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_c_1 : Ref sig .tc := ⟨.hbm, 16, rfl⟩
abbrev main_call1_v0 : Ref sig .tc := ⟨.hbm, 17, rfl⟩
abbrev main_v1 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_v14 : Ref sig .tc := ⟨.hbm, 38, rfl⟩
abbrev main_call2_cst : Ref sig .tc := ⟨.hbm, 39, rfl⟩
abbrev main_call2_v15 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst : Ref sig .tc := ⟨.hbm, 53, rfl⟩
abbrev main_v14 : Ref sig .tc := ⟨.hbm, 54, rfl⟩
abbrev main_cst_2 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_3 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S100000 : S_.BroadcastsInDim S100000 (![] : Fin 0 → Fin S100000.rank)
  pads_S100000_S106496_064960 : S100000.Pads (![0] : Fin 1 → Nat) ![6496] ![0] S106496
  h_S_ : 0 < S_.numel
  bcast_S_S106496 : S_.BroadcastsInDim S106496 (![] : Fin 0 → Fin S106496.rank)
  bcast_S106496_S106496x1_0 : S106496.BroadcastsInDim S106496x1 (![0] : Fin 1 → Fin S106496x1.rank)
  bcast_S_S106496x1 : S_.BroadcastsInDim S106496x1 (![] : Fin 0 → Fin S106496x1.rank)
  bcast_S1_S1x1_1 : S1.BroadcastsInDim S1x1 (![1] : Fin 1 → Fin S1x1.rank)
  bcast_S1x1_S106496x1_0_1 : S1x1.BroadcastsInDim S106496x1 (![0, 1] : Fin 2 → Fin S106496x1.rank)
  reducesTo_S106496x1_S106496_d1 : S106496x1.ReducesTo [1] S106496
  bcast_S106496_S106496x128_0 : S106496.BroadcastsInDim S106496x128 (![0] : Fin 1 → Fin S106496x128.rank)
  bcast_S_S106496x128 : S_.BroadcastsInDim S106496x128 (![] : Fin 0 → Fin S106496x128.rank)
  shapeCasts_S128_S1x128 : S128.ShapeCasts S1x128
  slices_S128x256_S128x128_0_0 : S128x256.Slices ![0, 0] S128x128
  transposes_S128x128_S128x128_1_0 : S128x128.Transposes [1, 0] S128x128
  slices_S128x256_S128x128_0_128 : S128x256.Slices ![0, 128] S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  transposes_S64x128_p1_0_S128x64 : S64x128.Transposes [1, 0] S128x64
  reduces_S8192x64_S8192 : S8192x64.Reduces [1] S8192
  shapeCasts_S8192_S8192x1 : S8192.ShapeCasts S8192x1
  broadcasts_S8192x1_S8192x64 : S8192x1.Broadcasts S8192x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  reduces_S8192x128_S8192 : S8192x128.Reduces [1] S8192
  inb_S8192_S8192_0 : ∀ a, (![0] : Fin 1 → Nat) a + S8192.size a ≤ S8192.size a
  h_S8192 : 0 < S8192.numel
  slices_S106496_S100000_0 : S106496.Slices ![0] S100000
  reducesTo_S100000_S_d0 : S100000.ReducesTo [0] S_
  bcast_S_S1 : S_.BroadcastsInDim S1 (![] : Fin 0 → Fin S1.rank)
  bcast_S1_S100000_0 : S1.BroadcastsInDim S100000 (![0] : Fin 1 → Fin S100000.rank)
  gather_S500000x128_S106496x1_S106496x128_1_0_n_n_0_1_1128_wf : GatherDims.WF S500000x128 S106496x1 S106496x128 [1] [0] [] [0] [] 1 ![1, 128]
  dot_S1x128_S128x128_S1x128_1_0_0_1_n_n_wf : DotDims.WF S1x128 S128x128 S1x128 [1] [0] [0] [1] [] []
  dot_S8192x128_S128x64_S8192x64_1_0_0_1_n_n_wf : DotDims.WF S8192x128 S128x64 S8192x64 [1] [0] [0] [1] [] []
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S106496x128.size a
  hwx0_0 : ∀ i : grid0.Coords, EltTy.bits .f32 = 32 ∨ (Rect.block (s := S106496x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192.size a ≤ S106496.size a
  hwx0_7 : ∀ i : grid0.Coords, EltTy.bits .f32 = 32 ∨ (Rect.block (s := S106496) S8192.size (cc0_transform_7 i) (hinb0_7 i)).WholeWords (EltTy.packing .f32)

variable [Facts₀]

def gather_S500000x128_S106496x1_S106496x128_1_0_n_n_0_1_1128 : GatherDims S500000x128 S106496x1 S106496x128 where
  offsetDims := [1]
  collapsedSliceDims := [0]
  operandBatchingDims := []
  startIndicesBatchingDims := []
  startIndexMap := [0]
  indexVectorDim := 1
  sliceSizes := ![1, 128]
  wf := gather_S500000x128_S106496x1_S106496x128_1_0_n_n_0_1_1128_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v2) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000 : Shape := ⟨1, ![100000]⟩
abbrev S500000x128 : Shape := ⟨2, ![500000, 128]⟩
abbrev S64x128 : Shape := ⟨2, ![64, 128]⟩
abbrev S128 : Shape := ⟨1, ![128]⟩
abbrev S128x256 : Shape := ⟨2, ![128, 256]⟩
abbrev S128x128 : Shape := ⟨2, ![128, 128]⟩
abbrev S_ : Shape := ⟨0, ![]⟩
abbrev S100000x1 : Shape := ⟨2, ![100000, 1]⟩
abbrev S100000x128 : Shape := ⟨2, ![100000, 128]⟩
abbrev S100000x64 : Shape := ⟨2, ![100000, 64]⟩
abbrev S100000x256 : Shape := ⟨2, ![100000, 256]⟩
abbrev S256x128 : Shape := ⟨2, ![256, 128]⟩
abbrev S1x128 : Shape := ⟨2, ![1, 128]⟩
abbrev S1 : Shape := ⟨1, ![1]⟩

abbrev nBuf : Space → Nat
  | .hbm => 64
  | .vmem => 0
  | .smem => 0
  | _ => 0

abbrev bufTy : (tb : Table) → Fin (tcTables nBuf tb) → BufTy
  | .hbm, ⟨0, _⟩ => ⟨S100000, .i32⟩
  | .hbm, ⟨1, _⟩ => ⟨S500000x128, .f32⟩
  | .hbm, ⟨2, _⟩ => ⟨S64x128, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S100000, .i32⟩
  | .hbm, ⟨10, _⟩ => ⟨S100000, .i1⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S100000, .i32⟩
  | .hbm, ⟨15, _⟩ => ⟨S100000x1, .i32⟩
  | .hbm, ⟨16, _⟩ => ⟨S100000x128, .f32⟩
  | .hbm, ⟨17, _⟩ => ⟨S100000x64, .f32⟩
  | .hbm, ⟨18, _⟩ => ⟨S_, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S_, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x128, .f32⟩
  | .hbm, ⟨33, _⟩ => ⟨S100000x128, .f32⟩
  | .hbm, ⟨34, _⟩ => ⟨S100000x256, .f32⟩
  | .hbm, ⟨35, _⟩ => ⟨S256x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1, .f32⟩
  | .hbm, ⟨56, _⟩ => ⟨S100000, .f32⟩
  | .hbm, ⟨57, _⟩ => ⟨S100000, .f32⟩
  | .hbm, ⟨58, _⟩ => ⟨S100000, .f32⟩
  | .hbm, ⟨59, _⟩ => ⟨S_, .f32⟩
  | .hbm, ⟨60, _⟩ => ⟨S_, .f32⟩
  | .hbm, ⟨61, _⟩ => ⟨S1, .f32⟩
  | .hbm, ⟨62, _⟩ => ⟨S100000, .f32⟩
  | .hbm, ⟨63, _⟩ => ⟨S100000, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_cst : Ref sig .tc := ⟨.hbm, 40, rfl⟩
abbrev main_call0_v0 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  reducesTo_S100000x64_S100000_d1 : S100000x64.ReducesTo [1] S100000
  h_S_ : 0 < S_.numel
  bcast_S100000x1_S100000x64_0_1 : S100000x1.BroadcastsInDim S100000x64 (![0, 1] : Fin 2 → Fin S100000x64.rank)
  bcast_S128_S100000x128_1 : S128.BroadcastsInDim S100000x128 (![1] : Fin 1 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  reducesTo_S100000x128_S100000_d1 : S100000x128.ReducesTo [1] S100000
  reducesTo_S100000_S_d0 : S100000.ReducesTo [0] S_
  bcast_S_S1 : S_.BroadcastsInDim S1 (![] : Fin 0 → Fin S1.rank)
  bcast_S1_S100000_0 : S1.BroadcastsInDim S100000 (![0] : Fin 1 → Fin S100000.rank)
  gather_S500000x128_S100000x1_S100000x128_1_0_n_n_0_1_1128_wf : GatherDims.WF S500000x128 S100000x1 S100000x128 [1] [0] [] [0] [] 1 ![1, 128]
  dot_S100000x128_S64x128_S100000x64_1_1_0_0_n_n_wf : DotDims.WF S100000x128 S64x128 S100000x64 [1] [1] [0] [0] [] []
  dot_S100000x64_S64x128_S100000x128_1_0_0_1_n_n_wf : DotDims.WF S100000x64 S64x128 S100000x128 [1] [0] [0] [1] [] []
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []

variable [Facts₀]

def gather_S500000x128_S100000x1_S100000x128_1_0_n_n_0_1_1128 : GatherDims S500000x128 S100000x1 S100000x128 where
  offsetDims := [1]
  collapsedSliceDims := [0]
  operandBatchingDims := []
  startIndicesBatchingDims := []
  startIndexMap := [0]
  indexVectorDim := 1
  sliceSizes := ![1, 128]
  wf := gather_S500000x128_S100000x1_S100000x128_1_0_n_n_0_1_1128_wf
def dot_S100000x128_S64x128_S100000x64_1_1_0_0_n_n : DotDims S100000x128 S64x128 S100000x64 where
  lhsContracting := [1]
  rhsContracting := [1]
  lhsNonContracting := [0]
  rhsNonContracting := [0]
  lhsBatch := []
  rhsBatch := []
  wf := dot_S100000x128_S64x128_S100000x64_1_1_0_0_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, stated once over plain index functions.

  Every action `a` owns one row `x` of the embedding table (128 entries). Its score is
    logits  l  = ∑ d, x d · q l d                      (64 question tokens)
    weights    = softmax of the logits (maximum subtracted, from the −∞ word)
    attended d = ∑ l, weights l · q l d
    hidden  k  = max (pre attended k) 0                (`pre`: the first layer's pre-activation)
    score      = ∑ d, x d · (∑ k, hidden k · w2 k d + b2 d)
  and the result is the softmax of the 100000 scores.

  The two programs differ in two places only. The first layer multiplies the concatenation [history; attended]
  (256 entries) by W1ᵀ; one side does that as one 256-term sum, the other splits it into the history half — the same
  for every action, computed once — and the attended half: the same extended real, since addition there is commutative
  and associative (no finiteness is needed). And they pick the row differently: one wraps a negative id around the
  table before the gather clamps it, the other clips the id into the table first; for an id that is not negative both
  read the row `min id 499999`.
-/
import Idealize.ShloMosaic.PureOps.Ideal
import Idealize.ShloMosaic.PureOps.Ideal.Laws
import Idealize.ShloMosaic.Lib.ValueIdx

noncomputable section

open scoped BigOperators

namespace Cert.Attn

open Idealize.ShloMosaic

/-! ## One action's score -/

/-- The word both programs start every maximum from: the pattern of −∞. -/
abbrev negInf : EReal := Ideal.ofBits .f32 0xFF800000#32

/-- The logit of question token `l`: the row against the token's embedding. -/
def logits (x : Fin 128 → EReal) (q : Fin 64 → Fin 128 → EReal) (l : Fin 64) : EReal :=
  ∑ d : Fin 128, x d * q l d

/-- The maximum a softmax over the 64 tokens subtracts: the fold of `max` from −∞, and once more against −∞. -/
def rowMax (att : Fin 64 → EReal) : EReal :=
  max negInf ((Finset.univ : Finset (Fin 64)).fold max negInf att)

/-- The softmax weights over the 64 tokens. -/
def weights (att : Fin 64 → EReal) (l : Fin 64) : EReal :=
  Ideal.div (Ideal.exp (att l - rowMax att)) (∑ l' : Fin 64, Ideal.exp (att l' - rowMax att))

/-- The attention-weighted question vector. -/
def attended (x : Fin 128 → EReal) (q : Fin 64 → Fin 128 → EReal) (d : Fin 128) : EReal :=
  ∑ l : Fin 64, weights (logits x q) l * q l d

/-- One action's score, with the first layer's pre-activation `pre` left as a function of the attended vector. -/
def score (x : Fin 128 → EReal) (q : Fin 64 → Fin 128 → EReal) (pre : (Fin 128 → EReal) → Fin 128 → EReal)
    (w2 : Fin 128 → Fin 128 → EReal) (b2 : Fin 128 → EReal) : EReal :=
  ∑ d : Fin 128, x d * ((∑ k : Fin 128, max (pre (attended x q) k) 0 * w2 k d) + b2 d)

/-! ## The first layer, in its two arrangements -/

/-- [history; attended]: the 256 inputs of the first layer. -/
def histThenAttended (hist v : Fin 128 → EReal) (k : Fin 256) : EReal :=
  if h : k.val < 128 then hist ⟨k.val, h⟩ else v ⟨k.val - 128, by omega⟩

/-- The pre-activation as ONE 256-term sum against row `j` of `W1`, plus the bias. -/
def preWhole (hist : Fin 128 → EReal) (W1 : Fin 128 → Fin 256 → EReal) (b1 : Fin 128 → EReal)
    (v : Fin 128 → EReal) (j : Fin 128) : EReal :=
  (∑ k : Fin 256, histThenAttended hist v k * W1 j k) + b1 j

/-- The pre-activation SPLIT: the attended half against the transposed right half of `W1` (`wq d j`), plus the
    history half computed once (`h1 j`), plus the bias. -/
def preSplit (wq : Fin 128 → Fin 128 → EReal) (h1 b1 : Fin 128 → EReal) (v : Fin 128 → EReal) (j : Fin 128) : EReal :=
  (∑ d : Fin 128, v d * wq d j) + h1 j + b1 j

/-- The right half of `W1`, transposed: entry `(d, j)` is `W1[j, 128 + d]`. -/
def rightHalfT (W1 : Fin 128 → Fin 256 → EReal) (d j : Fin 128) : EReal := W1 j ⟨128 + d.val, by omega⟩

/-- The history half of the first layer: `∑ k, hist k · W1[j, k]` over the left half. -/
def histHalf (hist : Fin 128 → EReal) (W1 : Fin 128 → Fin 256 → EReal) (j : Fin 128) : EReal :=
  ∑ k : Fin 128, hist k * W1 j ⟨k.val, by omega⟩

/-- The two arrangements are one function: a 256-term sum is the sum of its two halves, in either order. -/
theorem preSplit_eq_preWhole (hist : Fin 128 → EReal) (W1 : Fin 128 → Fin 256 → EReal) (b1 v : Fin 128 → EReal) :
    preSplit (rightHalfT W1) (histHalf hist W1) b1 v = preWhole hist W1 b1 v := by
  funext j
  unfold preSplit preWhole
  congr 1
  have hsplit : ∑ k : Fin 256, histThenAttended hist v k * W1 j k
      = (∑ k : Fin 128, histThenAttended hist v (Fin.castAdd 128 k) * W1 j (Fin.castAdd 128 k))
        + ∑ k : Fin 128, histThenAttended hist v (Fin.natAdd 128 k) * W1 j (Fin.natAdd 128 k) :=
    Fin.sum_univ_add (fun k : Fin (128 + 128) => histThenAttended hist v k * W1 j k)
  rw [hsplit, add_comm]
  congr 1

/-! ## The softmax over the 100000 scores -/

/-- The shape of the score vector, of a scalar, and of a one-entry vector. -/
abbrev SA : Shape := ⟨1, ![100000]⟩
abbrev S0 : Shape := ⟨0, ![]⟩
abbrev S1 : Shape := ⟨1, ![1]⟩

/-- The last ten host operations of both programs, as ONE function of the score vector: the maximum over all scores
    (from −∞, and once more against −∞), subtracted; the exponential; the total; the quotient. The shape facts the
    operations cite are arguments: either program passes its own. -/
def smTail (hr : SA.ReducesTo [0] S0) (h0 : 0 < S0.numel) (b01 : S0.BroadcastsInDim S1 (![] : Fin 0 → Fin S1.rank))
    (b1n : S1.BroadcastsInDim SA (![0] : Fin 1 → Fin SA.rank)) (s : FVec Ideal SA .f32) : FVec Ideal SA .f32 :=
  let e : FVec Ideal SA .f32 := Host.exp (F := Ideal) (subf s (broadcastInDim SA ![0] b1n (broadcastInDim S1 ![] b01
    (maximumf (constant (F := Ideal) S0 .f32 0xFF800000#32)
      (Host.reduce FloatOps.maximumf s (constant (F := Ideal) S0 .f32 0xFF800000#32) hr h0)))))
  Host.divf (F := Ideal) e (broadcastInDim SA ![0] b1n (broadcastInDim S1 ![] b01
    (Host.reduceAdd (F := Ideal) e (constant (F := Ideal) S0 .f32 0x00000000#32) hr h0)))

/-! ## Which table row an id names -/

/-- The row the wrap-then-gather side reads for the id word `w`: a negative id has the table's length added, and the
    gather reads the result signed, clamped into the table. -/
def wrapRow (w : BitVec 32) : Fin 500000 :=
  ⟨min (if w.slt 0#32 then w + 500000#32 else w).toInt.toNat 499999, by omega⟩

end Cert.Attn

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.LibGatherRows.lean ====
/-
  A table's rows gathered by a column of row ids, read at an index.

  `table[ids]` for a table `[N, D]` and ids `[R]` lowers to a gather with the ids as a column `[R, 1]`: offset axis
  `[1]`, collapsed slice axis `[0]`, start index map `[0]`, index vector axis `1`, slice sizes `[1, D]`. Its element
  `(r, c)` is the table at row `ids[r]` — read as a signed integer and clamped into `[0, N − 1]`, as every start index
  of a gather is — and column `c`.
-/
import Idealize.ShloMosaic.Lib.ValueIdx

noncomputable section

namespace Cert.LibGatherRows

open Idealize.ShloMosaic Idealize.ShloMosaic.ValueIdx

variable {α : Type}

/-- Those dimension numbers for a table `[N, D]`, a column of ids `[R, 1]` and the result `[R, D]`; their conditions
    `wf` are decided on a program's literal shapes. -/
abbrev rowsDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row the gather reads for the id word `b` in a table of `N` rows: `b` signed, clamped into `[0, N − 1]`. -/
def clampRow (N : Nat) (hN : 0 < N) {w : Nat} (b : BitVec w) : Fin N := ⟨min b.toInt.toNat (N - 1), by omega⟩

/-- The gathered element's table row: the id of result row `r`, clamped. -/
theorem operandIdx_row {N D R w : Nat} (hN : 0 < N)
    (wf : GatherDims.WF ⟨2, ![N, D]⟩ ⟨2, ![R, 1]⟩ ⟨2, ![R, D]⟩ [1] [0] [] [0] [] 1 ![1, D])
    (ids : IVec ⟨2, ![R, 1]⟩ w) (r : Fin R) (c : Fin D) :
    ((rowsDims N D R wf).operandIdx (ix2 r c) ids (0 : Fin 2)).val = (clampRow N hN (ids (ix2 r (0 : Fin 1)))).val := by
  show (rowsDims N D R wf).start (ix2 r c) ids (0 : Fin 2) + (rowsDims N D R wf).batchCoord (ix2 r c) (0 : Fin 2)
      + (rowsDims N D R wf).offCoord (ix2 r c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D R wf).startIndexMap from List.mem_singleton.mpr rfl)]
  have hsi : (rowsDims N D R wf).siIdx (ix2 r c) ⟨List.idxOf (0 : Fin 2) (rowsDims N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- The gathered element's table column: the result's column. -/
theorem operandIdx_col {N D R w : Nat}
    (wf : GatherDims.WF ⟨2, ![N, D]⟩ ⟨2, ![R, 1]⟩ ⟨2, ![R, D]⟩ [1] [0] [] [0] [] 1 ![1, D])
    (ids : IVec ⟨2, ![R, 1]⟩ w) (r : Fin R) (c : Fin D) :
    ((rowsDims N D R wf).operandIdx (ix2 r c) ids (1 : Fin 2)).val = c.val := by
  show (rowsDims N D R wf).start (ix2 r c) ids (1 : Fin 2) + (rowsDims N D R wf).batchCoord (ix2 r c) (1 : Fin 2)
      + (rowsDims N D R wf).offCoord (ix2 r c) (1 : Fin 2) = _
  rw [GatherDims.batchCoord_eq_zero _ _ _ List.not_mem_nil]
  have h0 : (rowsDims N D R wf).start (ix2 r c) ids (1 : Fin 2) = 0 := by
    unfold GatherDims.start
    rw [dif_neg (show ¬((1 : Fin 2) ∈ (rowsDims N D R wf).startIndexMap) from
      (by decide : ¬((1 : Fin 2) ∈ ([0] : List (Fin 2)))))]
  rw [h0]
  simp only [Nat.zero_add, Nat.add_zero]
  rfl

/-- THE GATHER READ AT `(r, c)`: the table at the clamped row of `ids[r]`, column `c`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (ids : IVec ⟨2, ![R, 1]⟩ w) (r : Fin R) (c : Fin D) :
    Host.gather (rowsDims N D R wf) x ids (ix2 r c) = x (ix2 (clampRow N hN (ids (ix2 r (0 : Fin 1)))) c) := by
  unfold Host.gather
  congr 1
  funext a
  refine Fin.ext ?_
  match a with
  | ⟨0, _⟩ => exact operandIdx_row hN wf ids r c
  | ⟨1, _⟩ => exact operandIdx_col wf ids r c

end Cert.LibGatherRows

end
-- ==== Proof.RefScores.lean ====
/-
  The reference program's stages, read as the specification.

  The reference gathers one table row per action (a negative id wrapped around the table first, then the gather's
  clamp), and for each action computes the logits against the 64 question tokens, their softmax, the attended
  vector, the first layer over the concatenation [history; attended] as ONE 256-term sum, the rectifier, the second
  layer, and the row's product with the result, summed: the specification's `score` with the first layer in its whole
  arrangement. Its last ten operations are the softmax over the 100000 scores.
-/
import proofs.«405741_j21406117004078_3_alg».proof.Proof.RefRead
import proofs.«405741_j21406117004078_3_alg».proof.Proof.Spec
import proofs.«405741_j21406117004078_3_alg».proof.Proof.LibColumn
import proofs.«405741_j21406117004078_3_alg».proof.Proof.LibGatherRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Scores

open Cert.ReferenceIdeal Cert.ReferenceIdeal.Gen Cert.ReferenceIdeal.ReadP Idealize.ShloMosaic Idealize.ShloMosaic.ValueIdx

variable (x0 : (⟨S100000, .i32⟩ : BufTy).Contents (Elt Ideal)) (x1 : (⟨S500000x128, .f32⟩ : BufTy).Contents (Elt Ideal))
  (x2 : (⟨S64x128, .f32⟩ : BufTy).Contents (Elt Ideal)) (x3 : (⟨S128, .f32⟩ : BufTy).Contents (Elt Ideal))
  (x4 : (⟨S128x256, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))

/-! ## The operands as plain index functions -/

/- The table row of action `a` (the row its id names after the wrap and the gather's clamp) and the 64 question
   tokens, as plain index functions. -/
local notation "rowOf" a:max => (fun d => x1 (ix2 (Cert.Attn.wrapRow (x0 (ix1 a))) d))
local notation "tok" => (fun l d => x2 (ix2 l d))

/-! ## The gathered row -/

/-- The word a signed comparison with zero selects: the id with the table's length added when it is negative. -/
theorem select_wrap (w : BitVec 32) :
    Scalar.select (IntOp.cmpi .slt w 0#32) (IntOp.addi w 500000#32) w
      = if BitVec.slt w 0#32 then w + 500000#32 else w := by
  show (if BitVec.ofBool (BitVec.slt w 0#32) = 1#1 then w + 500000#32 else w) = _
  cases BitVec.slt w 0#32 <;> rfl

/-- The id the gather reads for action `a`. -/
theorem ids_apply (a : Fin 100000) :
    val_main_v5 (F := Ideal) x0 (ix2 a (0 : Fin 1))
      = if BitVec.slt (x0 (ix1 a)) 0#32 then x0 (ix1 a) + 500000#32 else x0 (ix1 a) := by
  have e : idx_main_v5 (ix2 a (0 : Fin 1)) = ix1 a :=
    funext fun c => Fin.ext (by match c with | ⟨0, _⟩ => rfl)
  rw [val_main_v5_apply, e, val_main_v4_apply, val_main_v1_apply, val_main_v3_apply, val_main_v0_apply,
    val_main_v2_apply, val_main_c_apply, val_main_c_0_apply]
  exact select_wrap _

/-- The gathered table at `(a, d)` is the row of action `a` at `d`. -/
theorem row_apply (a : Fin 100000) (d : Fin 128) :
    val_main_v6 (F := Ideal) x0 x1 (ix2 a d) = x1 (ix2 (Cert.Attn.wrapRow (x0 (ix1 a))) d) := by
  unfold val_main_v6
  show Host.gather (Cert.LibGatherRows.rowsDims 500000 128 100000 _) x1 (val_main_v5 (F := Ideal) x0) (ix2 a d) = _
  rw [Cert.LibGatherRows.gather_rows_apply (by decide), ids_apply]
  rfl

/-! ## The attention over the question tokens -/

/-- The first product at `(a, l)` is the logit of token `l`. -/
theorem logits_apply (a : Fin 100000) (l : Fin 64) :
    val_main_v7 (F := Ideal) x0 x1 x2 (ix2 a l) = Cert.Attn.logits (rowOf a) tok l := by
  rw [val_main_v7_apply]
  unfold Cert.Attn.logits
  refine Finset.sum_congr rfl fun k _ => ?_
  have el : lidx_main_v7 (ix2 a l) k = ix2 a k :=
    funext fun c => Fin.ext (by match c with | ⟨0, _⟩ => rfl | ⟨1, _⟩ => rfl)
  have er : ridx_main_v7 (ix2 a l) k = ix2 l k :=
    funext fun c => Fin.ext (by match c with | ⟨0, _⟩ => rfl | ⟨1, _⟩ => rfl)
  rw [el, er, row_apply]

/-- The row maximum of action `a`: the fold of `max` over its 64 logits from −∞, and once more against −∞. -/
theorem rowMax_apply (a : Fin 100000) :
    val_main_v10 (F := Ideal) x0 x1 x2 (ix1 a) = Cert.Attn.rowMax (Cert.Attn.logits (rowOf a) tok) := by
  rw [val_main_v10_apply, val_main_v9_apply, val_main_cst_1_apply]
  unfold val_main_v8
  rw [Cert.LibColumn.hostMaxAxis1_apply (val_main_v7 (F := Ideal) x0 x1 x2) (val_main_cst (F := Ideal))
    reducesTo_S100000x64_S100000_d1 (by decide) h_S_ a, val_main_cst_apply, Ideal.maximumf_def, Ideal.ofBits_def]
  unfold Cert.Attn.rowMax
  refine congrArg (max Cert.Attn.negInf) (congrArg (Finset.fold max Cert.Attn.negInf · Finset.univ) ?_)
  exact funext fun k => logits_apply x0 x1 x2 a k

/-- The exponential of a logit less the row maximum. -/
theorem exp_apply (a : Fin 100000) (l : Fin 64) :
    val_main_v14 (F := Ideal) x0 x1 x2 (ix2 a l)
      = Ideal.exp (Cert.Attn.logits (rowOf a) tok l
          - Cert.Attn.rowMax (Cert.Attn.logits (rowOf a) tok)) := by
  have e : idx_main_v11 (idx_main_v12 (ix2 a l)) = ix1 a :=
    funext fun c => Fin.ext (by match c with | ⟨0, _⟩ => rfl)
  rw [val_main_v14_apply, val_main_v13_apply, val_main_v12_apply, val_main_v11_apply, e, rowMax_apply, logits_apply,
    Ideal.hostUnary_exp_def, Ideal.subf_def]

/-- The total of a row's exponentials: the host's sum starts from the zero word. -/
theorem sumExp_apply (a : Fin 100000) :
    val_main_v15 (F := Ideal) x0 x1 x2 (ix1 a)
      = ∑ l' : Fin 64, Ideal.exp (Cert.Attn.logits (rowOf a) tok l'
          - Cert.Attn.rowMax (Cert.Attn.logits (rowOf a) tok)) := by
  rw [val_main_v15_apply, val_main_cst_2_apply, Ideal.ofBits_def, Ideal.ofBits_zero_f32, zero_add]
  refine Finset.sum_congr rfl fun k _ => ?_
  have e : idx_main_v15 (ix1 a) k = ix2 a k :=
    funext fun c => Fin.ext (by match c with | ⟨0, _⟩ => rfl | ⟨1, _⟩ => rfl)
  rw [e, exp_apply]

/-- The quotient at `(a, l)` is the softmax weight of token `l`. -/
theorem weights_apply (a : Fin 100000) (l : Fin 64) :
    val_main_v18 (F := Ideal) x0 x1 x2 (ix2 a l) = Cert.Attn.weights (Cert.Attn.logits (rowOf a) tok) l := by
  have e : idx_main_v16 (idx_main_v17 (ix2 a l)) = ix1 a :=
    funext fun c => Fin.ext (by match c with | ⟨0, _⟩ => rfl)
  rw [val_main_v18_apply, val_main_v17_apply, val_main_v16_apply, e, sumExp_apply, exp_apply, Ideal.hostDivf_def]
  rfl

/-- The second product at `(a, d)` is the attended vector at `d`. -/
theorem attended_apply (a : Fin 100000) (d : Fin 128) :
    val_main_v19 (F := Ideal) x0 x1 x2 (ix2 a d) = Cert.Attn.attended (rowOf a) tok d := by
  rw [val_main_v19_apply]
  unfold Cert.Attn.attended
  refine Finset.sum_congr rfl fun k _ => ?_
  have el : lidx_main_v19 (ix2 a d) k = ix2 a k :=
    funext fun c => Fin.ext (by match c with | ⟨0, _⟩ => rfl | ⟨1, _⟩ => rfl)
  have er : ridx_main_v19 (ix2 a d) k = ix2 k d :=
    funext fun c => Fin.ext (by match c with | ⟨0, _⟩ => rfl | ⟨1, _⟩ => rfl)
  rw [el, er, weights_apply]

/-! ## The two layers -/

/- The history vector and the first layer's weights and bias, as plain index functions. -/
local notation "hist" => (fun k => x3 (ix1 k))
local notation "w1" => (fun j k => x4 (ix2 j k))
local notation "b1" => (fun j => x5 (ix1 j))

/-- The concatenation at `(a, k)`: the history's entry `k` below 128, the attended vector's entry `k − 128` from
    there on. -/
theorem cat_apply (a : Fin 100000) (k : Fin 256) :
    val_main_v21 (F := Ideal) x0 x1 x2 x3 (ix2 a k)
      = Cert.Attn.histThenAttended hist (Cert.Attn.attended (rowOf a) tok) k := by
  unfold val_main_v21 Cert.Attn.histThenAttended
  by_cases h : k.val < 128
  · rw [dif_pos h]
    refine (concatenate_pair_apply_left (t := S100000x256) (s₁ := S100000x128) (s₂ := S100000x128) 1
      (val_main_v20 (F := Ideal) x3) (val_main_v19 (F := Ideal) x0 x1 x2)
      concatenates_S100000x128_S100000x128_S100000x256_d1 (ix2 a k) rfl (ix2 a (⟨k.val, h⟩ : Fin 128))
      (fun b => by match b with | ⟨0, _⟩ => rfl | ⟨1, _⟩ => rfl)).trans ?_
    have e : idx_main_v20 (ix2 a (⟨k.val, h⟩ : Fin 128)) = ix1 (⟨k.val, h⟩ : Fin 128) :=
      funext fun c => Fin.ext (by match c with | ⟨0, _⟩ => rfl)
    rw [val_main_v20_apply, e]
  · rw [dif_neg h]
    have hk : k.val - 128 < 128 := by omega
    refine (concatenate_pair_apply_right (t := S100000x256) (s₁ := S100000x128) (s₂ := S100000x128) 1
      (val_main_v20 (F := Ideal) x3) (val_main_v19 (F := Ideal) x0 x1 x2)
      concatenates_S100000x128_S100000x128_S100000x256_d1 (ix2 a k) rfl rfl (ix2 a (⟨k.val - 128, hk⟩ : Fin 128))
      (fun b hb => by
        match b with
        | ⟨0, _⟩ => rfl
        | ⟨1, _⟩ => exact absurd rfl hb)
      (by show k.val - 128 + 128 = k.val; omega)).trans ?_
    exact attended_apply x0 x1 x2 a _

/-- The first layer's pre-activation at `(a, j)`: one 256-term sum against row `j` of the weights, plus the bias. -/
theorem pre_apply (a : Fin 100000) (j : Fin 128) :
    val_main_v26 (F := Ideal) x0 x1 x2 x3 x4 x5 (ix2 a j)
      = Cert.Attn.preWhole hist w1 b1 (Cert.Attn.attended (rowOf a) tok) j := by
  have e : idx_main_v24 (idx_main_v25 (ix2 a j)) = ix1 j :=
    funext fun c => Fin.ext (by match c with | ⟨0, _⟩ => rfl)
  rw [val_main_v26_apply, val_main_v23_apply, val_main_v25_apply, val_main_v24_apply, e, Ideal.addf_def]
  unfold Cert.Attn.preWhole
  refine congrArg (· + x5 (ix1 j)) (Finset.sum_congr rfl fun k _ => ?_)
  have el : lidx_main_v23 (ix2 a j) k = ix2 a k :=
    funext fun c => Fin.ext (by match c with | ⟨0, _⟩ => rfl | ⟨1, _⟩ => rfl)
  have er : idx_main_v22 (ridx_main_v23 (ix2 a j) k) = ix2 j k :=
    funext fun c => Fin.ext (by match c with | ⟨0, _⟩ => rfl | ⟨1, _⟩ => rfl)
  rw [el, val_main_v22_apply, er, cat_apply]

/-- The rectifier: the maximum with the zero word. -/
theorem hidden_apply (a : Fin 100000) (k : Fin 128) :
    val_main_v27 (F := Ideal) x0 x1 x2 x3 x4 x5 (ix2 a k)
      = max (Cert.Attn.preWhole hist w1 b1 (Cert.Attn.attended (rowOf a) tok) k) 0 := by
  rw [val_main_v27_apply, val_main_call0_v0_apply, val_main_call0_cst_apply, pre_apply, Ideal.maximumf_def,
    Ideal.ofBits_def, Ideal.ofBits_zero_f32]

/-- The second layer at `(a, d)`: the hidden vector against row `d` of its weights, plus its bias. -/
theorem second_apply (a : Fin 100000) (d : Fin 128) :
    val_main_v32 (F := Ideal) x0 x1 x2 x3 x4 x5 x6 x7 (ix2 a d)
      = (∑ k : Fin 128, max (Cert.Attn.preWhole hist w1 b1
            (Cert.Attn.attended (rowOf a) tok) k) 0 * x6 (ix2 d k)) + x7 (ix1 d) := by
  have e : idx_main_v30 (idx_main_v31 (ix2 a d)) = ix1 d :=
    funext fun c => Fin.ext (by match c with | ⟨0, _⟩ => rfl)
  rw [val_main_v32_apply, val_main_v29_apply, val_main_v31_apply, val_main_v30_apply, e, Ideal.addf_def]
  refine congrArg (· + x7 (ix1 d)) (Finset.sum_congr rfl fun k _ => ?_)
  have el : lidx_main_v29 (ix2 a d) k = ix2 a k :=
    funext fun c => Fin.ext (by match c with | ⟨0, _⟩ => rfl | ⟨1, _⟩ => rfl)
  have er : idx_main_v28 (ridx_main_v29 (ix2 a d) k) = ix2 d k :=
    funext fun c => Fin.ext (by match c with | ⟨0, _⟩ => rfl | ⟨1, _⟩ => rfl)
  rw [el, val_main_v28_apply, er, hidden_apply]

/-! ## The score -/

/-- THE SCORE OF ACTION `a`: the stage before the final softmax, at `a`, is the specification's `score` of the
    table row `wrapRow id`, the first layer as one 256-term sum. -/
theorem scores_apply (a : Fin 100000) :
    val_main_v34 (F := Ideal) x0 x1 x2 x3 x4 x5 x6 x7 (ix1 a)
      = Cert.Attn.score (fun d => x1 (ix2 (Cert.Attn.wrapRow (x0 (ix1 a))) d)) (fun l d => x2 (ix2 l d))
          (Cert.Attn.preWhole (fun k => x3 (ix1 k)) (fun j k => x4 (ix2 j k)) (fun j => x5 (ix1 j)))
          (fun k j => x6 (ix2 j k)) (fun j => x7 (ix1 j)) := by
  rw [val_main_v34_apply, val_main_cst_3_apply, Ideal.ofBits_def, Ideal.ofBits_zero_f32, zero_add]
  unfold Cert.Attn.score
  refine Finset.sum_congr rfl fun d _ => ?_
  have e : idx_main_v34 (ix1 a) d = ix2 a d :=
    funext fun c => Fin.ext (by match c with | ⟨0, _⟩ => rfl | ⟨1, _⟩ => rfl)
  rw [e, val_main_v33_apply, row_apply, second_apply, Ideal.mulf_def]

/-- THE RESULT: the last ten operations are the softmax of the scores. -/
theorem result_eq_tail :
    val_main_v44 (F := Ideal) x0 x1 x2 x3 x4 x5 x6 x7
      = Cert.Attn.smTail reducesTo_S100000_S_d0 h_S_ bcast_S_S1 bcast_S1_S100000_0
          (val_main_v34 (F := Ideal) x0 x1 x2 x3 x4 x5 x6 x7) := by
  unfold val_main_v44 val_main_v43 val_main_v42 val_main_v41 val_main_v40 val_main_v39 val_main_v38 val_main_v37
    val_main_v36 val_main_v35 val_main_cst_4 val_main_cst_5 val_main_cst_6 Cert.Attn.smTail
  generalize val_main_v34 (F := Ideal) x0 x1 x2 x3 x4 x5 x6 x7 = s
  rfl

end Cert.ReferenceIdeal.Scores

end
-- ==== Proof.KBody.lean ====
/-
  The kernel body's arithmetic, read at one row.

  At a grid point the body loads a block of 8192 gathered rows and the six small operands, and stores one vector of 8192
  scores. Entry `r` of that vector depends on row `r` of the block only: it is the specification's `score` of that row,
  with the first layer in its split arrangement (attended half against the transposed weights, plus the history half,
  plus the bias).
-/
import proofs.«405741_j21406117004078_3_alg».proof.Proof.Gen.KernelIdeal.Skeleton
import proofs.«405741_j21406117004078_3_alg».proof.Proof.Spec
import proofs.«405741_j21406117004078_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The three products, read at an index

Each `tpu.matmul` into the zero constant is, at output index `(r, c)`, the sum over the one contracted coordinate
`k` of the left operand at `(r, k)` times the right operand at `(k, c)`. The four axis facts of each dimension
record say which coordinate of an operand index comes from the output index and which from the contraction. -/

/-! ### `[8192,128] × [128,64]`: rows against the transposed tokens -/

theorem lhsA_0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem lhsA_1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem rhsA_0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem rhsA_1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- The product of an `[8192,128]` block with a `[128,64]` matrix at `(r, c)`. -/
theorem matmulA_apply (A : FVec Ideal S8192x128 .bf16) (B : FVec Ideal S128x64 .bf16) (r : Fin 8192) (c : Fin 64) :
    matmul dot_S8192x128_S128x64_S8192x64_1_0_0_1_n_n none A B (constant S8192x64 .f32 0x00000000#32) (ix2 r c)
      = ∑ k : Fin 128, A (ix2 r k) * B (ix2 k c) := by
  simp only [matmul]
  rw [Ideal.matmul_constant_zero_apply, ← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 r c) ((contrEquiv1 dot_S8192x128_S128x64_S8192x64_1_0_0_1_n_n 128 rfl rfl).symm k) = ix2 r k := funext fun a => Fin.ext (by
    match a with
    | ⟨0, _⟩ => exact lhsA_0 _ _
    | ⟨1, _⟩ => exact (lhsA_1 _ _).trans hk)
  have er : dot_S8192x128_S128x64_S8192x64_1_0_0_1_n_n.rhsIdx (ix2 r c) ((contrEquiv1 dot_S8192x128_S128x64_S8192x64_1_0_0_1_n_n 128 rfl rfl).symm k) = ix2 k c := funext fun a => Fin.ext (by
    match a with
    | ⟨0, _⟩ => exact (rhsA_0 _ _).trans hk
    | ⟨1, _⟩ => exact rhsA_1 _ _)
  rw [el, er]

/-! ### `[8192,64] × [64,128]`: weights against the tokens -/

theorem lhsB_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem lhsB_1 (i : S8192x128.Idx) (q : dot_S8192x64_S64x128_S8192x128_1_0_0_1_n_n.contr.Idx) :
    (dot_S8192x64_S64x128_S8192x128_1_0_0_1_n_n.lhsIdx i q 1).val = (q ⟨0, by decide⟩).val :=
  dot_S8192x64_S64x128_S8192x128_1_0_0_1_n_n.lhsIdx_val_of_single rfl i q
theorem rhsB_0 (i : S8192x128.Idx) (q : dot_S8192x64_S64x128_S8192x128_1_0_0_1_n_n.contr.Idx) :
    (dot_S8192x64_S64x128_S8192x128_1_0_0_1_n_n.rhsIdx i q 0).val = (q ⟨0, by decide⟩).val :=
  dot_S8192x64_S64x128_S8192x128_1_0_0_1_n_n.rhsIdx_val_of_single rfl i q
theorem rhsB_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- The product of an `[8192,64]` block with a `[64,128]` matrix at `(r, c)`. -/
theorem matmulB_apply (A : FVec Ideal S8192x64 .bf16) (B : FVec Ideal S64x128 .bf16) (r : Fin 8192) (c : Fin 128) :
    matmul dot_S8192x64_S64x128_S8192x128_1_0_0_1_n_n none A B (constant S8192x128 .f32 0x00000000#32) (ix2 r c)
      = ∑ k : Fin 64, A (ix2 r k) * B (ix2 k c) := by
  simp only [matmul]
  rw [Ideal.matmul_constant_zero_apply, ← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 r c) ((contrEquiv1 dot_S8192x64_S64x128_S8192x128_1_0_0_1_n_n 64 rfl rfl).symm k) = ix2 r k := funext fun a => Fin.ext (by
    match a with
    | ⟨0, _⟩ => exact lhsB_0 _ _
    | ⟨1, _⟩ => exact (lhsB_1 _ _).trans hk)
  have er : dot_S8192x64_S64x128_S8192x128_1_0_0_1_n_n.rhsIdx (ix2 r c) ((contrEquiv1 dot_S8192x64_S64x128_S8192x128_1_0_0_1_n_n 64 rfl rfl).symm k) = ix2 k c := funext fun a => Fin.ext (by
    match a with
    | ⟨0, _⟩ => exact (rhsB_0 _ _).trans hk
    | ⟨1, _⟩ => exact rhsB_1 _ _)
  rw [el, er]

/-! ### `[8192,128] × [128,128]`: the two layers -/

theorem lhsC_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhsC_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhsC_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhsC_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The product of an `[8192,128]` block with a `[128,128]` matrix at `(r, c)`. -/
theorem matmulC_apply (A : FVec Ideal S8192x128 .bf16) (B : FVec Ideal S128x128 .bf16) (r : Fin 8192) (c : Fin 128) :
    matmul dot_S8192x128_S128x128_S8192x128_1_0_0_1_n_n none A B (constant S8192x128 .f32 0x00000000#32) (ix2 r c)
      = ∑ k : Fin 128, A (ix2 r k) * B (ix2 k c) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r c) ((contrEquiv1 dot_S8192x128_S128x128_S8192x128_1_0_0_1_n_n 128 rfl rfl).symm k) = ix2 r k := funext fun a => Fin.ext (by
    match a with
    | ⟨0, _⟩ => exact lhsC_0 _ _
    | ⟨1, _⟩ => exact (lhsC_1 _ _).trans hk)
  have er : dot_S8192x128_S128x128_S8192x128_1_0_0_1_n_n.rhsIdx (ix2 r c) ((contrEquiv1 dot_S8192x128_S128x128_S8192x128_1_0_0_1_n_n 128 rfl rfl).symm k) = ix2 k c := funext fun a => Fin.ext (by
    match a with
    | ⟨0, _⟩ => exact (rhsC_0 _ _).trans hk
    | ⟨1, _⟩ => exact rhsC_1 _ _)
  rw [el, er]

/-! ## The softmax over the 64 tokens, row by row

The body's steps from the logits block to the weights block, cut into three named stages so that each is read at an
index once: the row maximum (a fold of `max` from the −∞ word, and once more against that word), the exponentials
of the shifted logits, and the quotient by their row sum. -/

/-- The row maxima of a logits block. -/
def rowMaxBlock (v6 : FVec Ideal S8192x64 .f32) : FVec Ideal S8192 .f32 :=
  maximumf (broadcast S8192 (Scalar.ofBits (F := Ideal) .f32 0xFF800000#32))
    (multiReduction .maximumf [1] S8192 v6 0xFF800000#32 reduces_S8192x64_S8192 (.inl rfl) rfl)

/-- The exponentials of the logits shifted by their row maximum. -/
def expBlock (v6 : FVec Ideal S8192x64 .f32) : FVec Ideal S8192x64 .f32 :=
  exp (subf v6 (broadcastTo S8192x64 (shapeCast S8192x1 (rowMaxBlock v6) shapeCasts_S8192_S8192x1)
    broadcasts_S8192x1_S8192x64))

/-- The softmax weights of a logits block. -/
def softmaxBlock (v6 : FVec Ideal S8192x64 .f32) : FVec Ideal S8192x64 .f32 :=
  divf (expBlock v6)
    (broadcastTo S8192x64
      (shapeCast S8192x1
        (multiReduction .add [1] S8192 (expBlock v6) 0x00000000#32 reduces_S8192x64_S8192 (.inl rfl) rfl)
        shapeCasts_S8192_S8192x1)
      broadcasts_S8192x1_S8192x64)

/-- The row maximum at row `r` is the specification's `rowMax` of that row of logits. -/
theorem rowMaxBlock_apply (v6 : FVec Ideal S8192x64 .f32) (r : Fin 8192) :
    rowMaxBlock v6 (ix1 r) = Cert.Attn.rowMax (fun l => v6 (ix2 r l)) := by
  unfold rowMaxBlock Cert.Attn.rowMax
  show max (Ideal.ofBits .f32 0xFF800000#32) _ = _
  exact congrArg (max (Ideal.ofBits .f32 0xFF800000#32))
    (Cert.LibColumn.maxAxis1_apply v6 0xFF800000#32 reduces_S8192x64_S8192 (.inl rfl) rfl r)

/-- The shifted exponential at `(r, l)`. -/
theorem expBlock_apply (v6 : FVec Ideal S8192x64 .f32) (r : Fin 8192) (l : Fin 64) :
    expBlock v6 (ix2 r l) = Ideal.exp (v6 (ix2 r l) - Cert.Attn.rowMax (fun l' => v6 (ix2 r l'))) := by
  unfold expBlock
  show Ideal.exp (v6 (ix2 r l) - _) = _
  rw [Cert.LibColumn.broadcastTo_a1_ab_apply, Cert.LibColumn.shapeCast_a_a1_apply, rowMaxBlock_apply]

/-- The weights block at `(r, l)` is the specification's softmax weight of token `l` for that row of logits. -/
theorem softmaxBlock_apply (v6 : FVec Ideal S8192x64 .f32) (r : Fin 8192) (l : Fin 64) :
    softmaxBlock v6 (ix2 r l) = Cert.Attn.weights (fun l' => v6 (ix2 r l')) l := by
  unfold softmaxBlock Cert.Attn.weights
  show Ideal.div (expBlock v6 (ix2 r l)) _ = _
  rw [Cert.LibColumn.broadcastTo_a1_ab_apply, Cert.LibColumn.shapeCast_a_a1_apply]
  refine congrArg₂ Ideal.div (expBlock_apply v6 r l) ?_
  refine (Cert.LibColumn.sumAxis1_apply (expBlock v6) 0x00000000#32 reduces_S8192x64_S8192 (.inl rfl) rfl r).trans ?_
  exact Finset.sum_congr rfl fun l' _ => expBlock_apply v6 r l'

/-! ## The blocks between the products -/

/-- The logits block: the rows against the transposed question tokens. -/
def logitsBlock (v0 : Vec Ideal S8192x128 .f32) (v2 : Vec Ideal S64x128 .f32) : FVec Ideal S8192x64 .f32 :=
  matmul dot_S8192x128_S128x64_S8192x64_1_0_0_1_n_n none (truncf .bf16 (k0_pay2 v0) bitsLt_bf16_f32)
    (transpose S128x64 [1, 0] (truncf .bf16 v2 bitsLt_bf16_f32) transposes_S64x128_p1_0_S128x64)
    (constant S8192x64 .f32 0x00000000#32)

/-- The attended block: the softmax weights against the question tokens. -/
def attendedBlock (v0 : Vec Ideal S8192x128 .f32) (v2 : Vec Ideal S64x128 .f32) : FVec Ideal S8192x128 .f32 :=
  matmul dot_S8192x64_S64x128_S8192x128_1_0_0_1_n_n none
    (truncf .bf16 (softmaxBlock (logitsBlock v0 v2)) bitsLt_bf16_f32) (truncf .bf16 v2 bitsLt_bf16_f32)
    (constant S8192x128 .f32 0x00000000#32)

/-- The first layer on a block `v19`: its product with the transposed right half of the weights, plus the history
    row, plus the bias row, then the maximum with zero. -/
def hiddenBlock (v19 : FVec Ideal S8192x128 .f32) (v21 : Vec Ideal S128x128 .f32) (v25 v29 : Vec Ideal S1x128 .f32) :
    FVec Ideal S8192x128 .bf16 :=
  truncf .bf16
    (maximumf
      (addf
        (addf
          (matmul dot_S8192x128_S128x128_S8192x128_1_0_0_1_n_n none (truncf .bf16 v19 bitsLt_bf16_f32)
            (truncf .bf16 (shapeCast S128x128 v21 shapeCasts_S128x128_S128x128) bitsLt_bf16_f32)
            (constant S8192x128 .f32 0x00000000#32))
          (broadcastTo S8192x128 (shapeCast S1x128 v25 shapeCasts_S1x128_S1x128) broadcasts_S1x128_S8192x128))
        (broadcastTo S8192x128 (shapeCast S1x128 v29 shapeCasts_S1x128_S1x128) broadcasts_S1x128_S8192x128))
      (broadcast S8192x128 (Scalar.ofBits (F := Ideal) .f32 0x00000000#32)))
    bitsLt_bf16_f32

/-- The payload handed to the second layer is these three stages composed: the same term, its shared values named. -/
theorem k0_pay3_eq (v0 : Vec Ideal S8192x128 .f32) (v2 : Vec Ideal S64x128 .f32) (v21 : Vec Ideal S128x128 .f32)
    (v25 v29 : Vec Ideal S1x128 .f32) :
    k0_pay3 v0 v2 v21 v25 v29 = hiddenBlock (attendedBlock v0 v2) v21 v25 v29 := rfl

/-- A loaded block cast to its own shape is itself. -/
theorem k0_pay2_eq (v0 : Vec Ideal S8192x128 .f32) : k0_pay2 v0 = v0 :=
  shapeCast_self v0 shapeCasts_S8192x128_S8192x128

/-- The logits block at `(r, l)` is the specification's logit of token `l` for row `r`. -/
theorem logitsBlock_apply (v0 : Vec Ideal S8192x128 .f32) (v2 : Vec Ideal S64x128 .f32) (r : Fin 8192) (l : Fin 64) :
    logitsBlock v0 v2 (ix2 r l) = Cert.Attn.logits (fun d => v0 (ix2 r d)) (fun l d => v2 (ix2 l d)) l := by
  unfold logitsBlock Cert.Attn.logits
  refine (matmulA_apply _ _ r l).trans (Finset.sum_congr rfl fun d _ => ?_)
  rw [transpose_ix2_apply, k0_pay2_eq]
  rfl

/-- The attended block at `(r, d)` is the specification's attended vector of row `r` at `d`. -/
theorem attendedBlock_apply (v0 : Vec Ideal S8192x128 .f32) (v2 : Vec Ideal S64x128 .f32) (r : Fin 8192) (d : Fin 128) :
    attendedBlock v0 v2 (ix2 r d) = Cert.Attn.attended (fun d => v0 (ix2 r d)) (fun l d => v2 (ix2 l d)) d := by
  unfold attendedBlock Cert.Attn.attended
  refine (matmulB_apply _ _ r d).trans (Finset.sum_congr rfl fun l _ => ?_)
  show softmaxBlock (logitsBlock v0 v2) (ix2 r l) * v2 (ix2 l d) = _
  rw [softmaxBlock_apply]
  exact congrArg (fun att => Cert.Attn.weights att l * v2 (ix2 l d)) (funext fun l' => logitsBlock_apply v0 v2 r l')

/-- The hidden block at `(r, j)`: the specification's split pre-activation of row `r` of `v19`, against zero. -/
theorem hiddenBlock_apply (v19 : FVec Ideal S8192x128 .f32) (v21 : Vec Ideal S128x128 .f32) (v25 v29 : Vec Ideal S1x128 .f32)
    (r : Fin 8192) (j : Fin 128) :
    hiddenBlock v19 v21 v25 v29 (ix2 r j)
      = max (Cert.Attn.preSplit (fun d j => v21 (ix2 d j)) (fun j => v25 (ix2 (0 : Fin 1) j))
          (fun j => v29 (ix2 (0 : Fin 1) j)) (fun d => v19 (ix2 r d)) j) 0 := by
  unfold hiddenBlock Cert.Attn.preSplit
  show max (_ + _ + _) (Ideal.ofBits .f32 0x00000000#32) = _
  rw [matmulC_apply, broadcastTo_1b_ab_apply, broadcastTo_1b_ab_apply, shapeCast_self, shapeCast_self, shapeCast_self,
    Ideal.ofBits_zero_f32]
  rfl

/-! ## The last layer and the lane sum -/

/-- The score vector from the row block `v1`, the hidden block `v35`, the second layer's weights `v38` and its bias
    row `v40`: the rows times (hidden × weights + bias), summed along the lanes. -/
def scoreBlock (v1 : FVec Ideal S8192x128 .f32) (v35 : FVec Ideal S8192x128 .bf16) (v38 : FVec Ideal S128x128 .bf16)
    (v40 : Vec Ideal S1x128 .f32) : FVec Ideal S8192 .f32 :=
  multiReduction .add [1] S8192
    (mulf v1
      (addf
        (matmul dot_S8192x128_S128x128_S8192x128_1_0_0_1_n_n none v35 v38 (constant S8192x128 .f32 0x00000000#32))
        (broadcastTo S8192x128 (shapeCast S1x128 v40 shapeCasts_S1x128_S1x128) broadcasts_S1x128_S8192x128)))
    0x00000000#32 reduces_S8192x128_S8192 (.inl rfl) rfl

/-- The stored payload, with the zero constant as its accumulator, is that score vector: the same term. -/
theorem k0_pay1_eq (v1 : FVec Ideal S8192x128 .f32) (v35 : FVec Ideal S8192x128 .bf16) (v38 : FVec Ideal S128x128 .bf16)
    (v40 : Vec Ideal S1x128 .f32) :
    k0_pay1 (F := Ideal) v1 v35 v38 (constant S8192x128 .f32 0x00000000#32) v40 = scoreBlock v1 v35 v38 v40 := rfl

/-- The score vector at row `r`. -/
theorem scoreBlock_apply (v1 : FVec Ideal S8192x128 .f32) (v35 : FVec Ideal S8192x128 .bf16) (v38 : FVec Ideal S128x128 .bf16)
    (v40 : Vec Ideal S1x128 .f32) (r : Fin 8192) :
    scoreBlock v1 v35 v38 v40 (ix1 r)
      = ∑ d : Fin 128, v1 (ix2 r d) * ((∑ k : Fin 128, v35 (ix2 r k) * v38 (ix2 k d)) + v40 (ix2 (0 : Fin 1) d)) := by
  unfold scoreBlock
  refine (Cert.LibColumn.sumAxis1_apply _ 0x00000000#32 reduces_S8192x128_S8192 (.inl rfl) rfl r).trans
    (Finset.sum_congr rfl fun d _ => ?_)
  show v1 (ix2 r d) * (_ + _) = _
  rw [matmulC_apply, broadcastTo_1b_ab_apply, shapeCast_self]

/-- The second layer's weights as the body passes them on: the loaded matrix. -/
theorem k0_pay4_apply (v36 : Vec Ideal S128x128 .f32) (k d : Fin 128) : k0_pay4 v36 (ix2 k d) = v36 (ix2 k d) := by
  unfold k0_pay4
  show shapeCast S128x128 v36 shapeCasts_S128x128_S128x128 (ix2 k d) = _
  rw [shapeCast_self]

/-- THE STORED SCORE OF ROW `r`: the payload the body stores, at index `r`, as the specification's function of row `r`
    of the block `v0` and of the small operands (`v2` the question tokens, `v21` the transposed right half of the
    first layer's weights, `v25` the history half, `v29` the first bias, `v36` the transposed second layer's weights,
    `v40` the second bias). -/
theorem payload_score (v0 : Vec Ideal S8192x128 .f32) (v2 : Vec Ideal S64x128 .f32) (v21 : Vec Ideal S128x128 .f32)
    (v25 v29 : Vec Ideal S1x128 .f32) (v36 : Vec Ideal S128x128 .f32) (v40 : Vec Ideal S1x128 .f32) (r : Fin 8192) :
    k0_pay1 (F := Ideal) (k0_pay2 v0) (k0_pay3 v0 v2 v21 v25 v29) (k0_pay4 v36)
        (constant S8192x128 .f32 0x00000000#32) v40 (ix1 r)
      = Cert.Attn.score (fun d => v0 (ix2 r d)) (fun l d => v2 (ix2 l d))
          (Cert.Attn.preSplit (fun d j => v21 (ix2 d j)) (fun j => v25 (ix2 (0 : Fin 1) j))
            (fun j => v29 (ix2 (0 : Fin 1) j)))
          (fun k j => v36 (ix2 k j)) (fun j => v40 (ix2 (0 : Fin 1) j)) := by
  rw [k0_pay1_eq, scoreBlock_apply, k0_pay2_eq, k0_pay3_eq]
  unfold Cert.Attn.score
  refine Finset.sum_congr rfl fun d _ => ?_
  refine congrArg (fun t => v0 (ix2 r d) * (t + v40 (ix2 (0 : Fin 1) d))) (Finset.sum_congr rfl fun k _ => ?_)
  rw [hiddenBlock_apply, k0_pay4_apply]
  exact congrArg
    (fun a => max (Cert.Attn.preSplit (fun d j => v21 (ix2 d j)) (fun j => v25 (ix2 (0 : Fin 1) j))
      (fun j => v29 (ix2 (0 : Fin 1) j)) a k) 0 * v36 (ix2 k d))
    (funext fun d' => attendedBlock_apply v0 v2 r d')

end Cert.KernelIdeal.Body

end
-- ==== Proof.KReads.lean ====
/-
  The kernel's windows, read: which entries of which array each block holds.

  The grid has 13 points. At point `t` the first operand's block is rows `8192·t … 8192·t + 8191` of the gathered
  rows; each of the six small operands is staged whole (its one block is the array); the result's block is entries
  `8192·t … 8192·t + 8191` of the padded score vector, and the 13 result blocks cover that vector.
-/
import proofs.«405741_j21406117004078_3_alg».proof.Proof.Gen.KernelIdeal.Frame
import Idealize.ShloMosaic.Lib.Pipeline.Value
import Idealize.ShloMosaic.Lib.ValueIdx

noncomputable section

namespace Cert.KernelIdeal.Reads

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## The arrays as the region finds them, and the blocks, at their literal types -/

/-- The gathered rows. -/
abbrev relArr (c : Dev nD) : Vec Ideal S106496x128 .f32 := V m c main_v2
/-- The question tokens. -/
abbrev qArr (c : Dev nD) : Vec Ideal S64x128 .f32 := V m c main_arg2
/-- The history half of the first layer, as a row. -/
abbrev h1Arr (c : Dev nD) : Vec Ideal S1x128 .f32 := V m c main_v6
/-- The transposed right half of the first layer's weights. -/
abbrev w1qArr (c : Dev nD) : Vec Ideal S128x128 .f32 := V m c main_v8
/-- The first bias, as a row. -/
abbrev b1Arr (c : Dev nD) : Vec Ideal S1x128 .f32 := V m c main_v10
/-- The transposed second layer's weights. -/
abbrev w2tArr (c : Dev nD) : Vec Ideal S128x128 .f32 := V m c main_v9
/-- The second bias, as a row. -/
abbrev b2Arr (c : Dev nD) : Vec Ideal S1x128 .f32 := V m c main_v11

/-- Window `w`'s block at point `t`, at its literal type. -/
abbrev blk0 (c : Dev nD) (t : Fin cfg0.N) : Vec Ideal S8192x128 .f32 := iblk m c 0 t
abbrev blk1 (c : Dev nD) (t : Fin cfg0.N) : Vec Ideal S64x128 .f32 := iblk m c 1 t
abbrev blk2 (c : Dev nD) (t : Fin cfg0.N) : Vec Ideal S1x128 .f32 := iblk m c 2 t
abbrev blk3 (c : Dev nD) (t : Fin cfg0.N) : Vec Ideal S128x128 .f32 := iblk m c 3 t
abbrev blk4 (c : Dev nD) (t : Fin cfg0.N) : Vec Ideal S1x128 .f32 := iblk m c 4 t
abbrev blk5 (c : Dev nD) (t : Fin cfg0.N) : Vec Ideal S128x128 .f32 := iblk m c 5 t
abbrev blk6 (c : Dev nD) (t : Fin cfg0.N) : Vec Ideal S1x128 .f32 := iblk m c 6 t

/-! ## The index maps, decided over the grid -/

/-- The first operand's and the result's block index along the rows is the point's number; every other block index
    is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = t.val :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = t.val)

/-- A point's number is below 13. -/
theorem t_lt (t : Fin cfg0.N) : t.val < 13 := by
  have h : cfg0.N = 13 := N_0
  have := t.isLt
  omega

/-! ## The input blocks -/

/-- Row `r` of the first operand's block at point `t` is row `8192·t + r` of the gathered rows. -/
theorem blk0_apply (c : Dev nD) (t : Fin cfg0.N) (r : Fin 8192) (d : Fin 128) :
    blk0 m c t (ix2 r d) = relArr m c (ix2 (⟨t.val * 8192 + r.val, by have := t_lt t; omega⟩ : Fin 106496) d) := by
  obtain ⟨e0, e1, -⟩ := idx_facts t
  show iblk m c 0 t (ix2 r d) = _
  unfold iblk
  rw [View.read_apply]
  show V m c main_v2 _ = V m c main_v2 _
  refine congrArg (V m c main_v2) ?_
  funext a
  apply Fin.ext
  match a with
  | ⟨0, _⟩ => show win0_0.index t (0 : Fin 2) * 8192 + 1 * r.val = t.val * 8192 + r.val; rw [e0]; omega
  | ⟨1, _⟩ => show win0_0.index t (1 : Fin 2) * 128 + 1 * d.val = d.val; rw [e1]; omega

/-- The question tokens' block is the array. -/
theorem blk1_apply (c : Dev nD) (t : Fin cfg0.N) (l : Fin 64) (d : Fin 128) :
    blk1 m c t (ix2 l d) = qArr m c (ix2 l d) := by
  obtain ⟨-, -, e0, e1, -⟩ := idx_facts t
  show iblk m c 1 t (ix2 l d) = _
  unfold iblk
  rw [View.read_apply]
  show V m c main_arg2 _ = V m c main_arg2 _
  refine congrArg (V m c main_arg2) ?_
  funext a
  apply Fin.ext
  match a with
  | ⟨0, _⟩ => show win0_1.index t (0 : Fin 2) * 64 + 1 * l.val = l.val; rw [e0]; omega
  | ⟨1, _⟩ => show win0_1.index t (1 : Fin 2) * 128 + 1 * d.val = d.val; rw [e1]; omega

/-- The history half's block is the row. -/
theorem blk2_apply (c : Dev nD) (t : Fin cfg0.N) (u : Fin 1) (j : Fin 128) :
    blk2 m c t (ix2 u j) = h1Arr m c (ix2 u j) := by
  obtain ⟨-, -, -, -, e0, e1, -⟩ := idx_facts t
  show iblk m c 2 t (ix2 u j) = _
  unfold iblk
  rw [View.read_apply]
  show V m c main_v6 _ = V m c main_v6 _
  refine congrArg (V m c main_v6) ?_
  funext a
  apply Fin.ext
  match a with
  | ⟨0, _⟩ => show win0_2.index t (0 : Fin 2) * 1 + 1 * u.val = u.val; rw [e0]; omega
  | ⟨1, _⟩ => show win0_2.index t (1 : Fin 2) * 128 + 1 * j.val = j.val; rw [e1]; omega

/-- The transposed first-layer weights' block is the array. -/
theorem blk3_apply (c : Dev nD) (t : Fin cfg0.N) (d j : Fin 128) :
    blk3 m c t (ix2 d j) = w1qArr m c (ix2 d j) := by
  obtain ⟨-, -, -, -, -, -, e0, e1, -⟩ := idx_facts t
  show iblk m c 3 t (ix2 d j) = _
  unfold iblk
  rw [View.read_apply]
  show V m c main_v8 _ = V m c main_v8 _
  refine congrArg (V m c main_v8) ?_
  funext a
  apply Fin.ext
  match a with
  | ⟨0, _⟩ => show win0_3.index t (0 : Fin 2) * 128 + 1 * d.val = d.val; rw [e0]; omega
  | ⟨1, _⟩ => show win0_3.index t (1 : Fin 2) * 128 + 1 * j.val = j.val; rw [e1]; omega

/-- The first bias's block is the row. -/
theorem blk4_apply (c : Dev nD) (t : Fin cfg0.N) (u : Fin 1) (j : Fin 128) :
    blk4 m c t (ix2 u j) = b1Arr m c (ix2 u j) := by
  obtain ⟨-, -, -, -, -, -, -, -, e0, e1, -⟩ := idx_facts t
  show iblk m c 4 t (ix2 u j) = _
  unfold iblk
  rw [View.read_apply]
  show V m c main_v10 _ = V m c main_v10 _
  refine congrArg (V m c main_v10) ?_
  funext a
  apply Fin.ext
  match a with
  | ⟨0, _⟩ => show win0_4.index t (0 : Fin 2) * 1 + 1 * u.val = u.val; rw [e0]; omega
  | ⟨1, _⟩ => show win0_4.index t (1 : Fin 2) * 128 + 1 * j.val = j.val; rw [e1]; omega

/-- The transposed second-layer weights' block is the array. -/
theorem blk5_apply (c : Dev nD) (t : Fin cfg0.N) (k j : Fin 128) :
    blk5 m c t (ix2 k j) = w2tArr m c (ix2 k j) := by
  obtain ⟨-, -, -, -, -, -, -, -, -, -, e0, e1, -⟩ := idx_facts t
  show iblk m c 5 t (ix2 k j) = _
  unfold iblk
  rw [View.read_apply]
  show V m c main_v9 _ = V m c main_v9 _
  refine congrArg (V m c main_v9) ?_
  funext a
  apply Fin.ext
  match a with
  | ⟨0, _⟩ => show win0_5.index t (0 : Fin 2) * 128 + 1 * k.val = k.val; rw [e0]; omega
  | ⟨1, _⟩ => show win0_5.index t (1 : Fin 2) * 128 + 1 * j.val = j.val; rw [e1]; omega

/-- The second bias's block is the row. -/
theorem blk6_apply (c : Dev nD) (t : Fin cfg0.N) (u : Fin 1) (j : Fin 128) :
    blk6 m c t (ix2 u j) = b2Arr m c (ix2 u j) := by
  obtain ⟨-, -, -, -, -, -, -, -, -, -, -, -, e0, e1, -⟩ := idx_facts t
  show iblk m c 6 t (ix2 u j) = _
  unfold iblk
  rw [View.read_apply]
  show V m c main_v11 _ = V m c main_v11 _
  refine congrArg (V m c main_v11) ?_
  funext a
  apply Fin.ext
  match a with
  | ⟨0, _⟩ => show win0_6.index t (0 : Fin 2) * 1 + 1 * u.val = u.val; rw [e0]; omega
  | ⟨1, _⟩ => show win0_6.index t (1 : Fin 2) * 128 + 1 * j.val = j.val; rw [e1]; omega

/-! ## The result's blocks -/

/-- Entry `r` of the result's block at point `t` sits at entry `8192·t + r` of the padded score vector. -/
theorem out_emb (t : Fin cfg0.N) (r : Fin 8192) :
    ((cfg0.win 7).blk t).view.emb (ix1 r) = ix1 (⟨t.val * 8192 + r.val, by have := t_lt t; omega⟩ : Fin 106496) := by
  obtain ⟨-, -, -, -, -, -, -, -, -, -, -, -, -, -, e0⟩ := idx_facts t
  funext a
  apply Fin.ext
  match a with
  | ⟨0, _⟩ => show win0_7.index t (0 : Fin 1) * 8192 + 1 * r.val = t.val * 8192 + r.val; rw [e0]; omega

/-- An entry of the padded score vector is in point `t`'s block iff it is in that block's range. -/
theorem mem_out_blk (t : Fin cfg0.N) (i : S106496.Idx) :
    i ∈ ((cfg0.win 7).blk t).view.set ↔ ∀ a : Fin 1, win0_7.index t a * S8192.size a ≤ (i a).val ∧ (i a).val < win0_7.index t a * S8192.size a + S8192.size a := by
  show i ∈ ((View.whole main_v12).slice (win0_7.rect t)).set ↔ _
  rw [View.set_slice_whole, Rect.mem_set_unit]
  exact Iff.rfl

/-- THE COVER: every entry of the padded score vector is in the block of the point `entry / 8192`. -/
theorem out_cover (i : S106496.Idx) :
    ∃ t : Fin cfg0.N, (cfg0.win 7).flush t = true ∧ i ∈ ((cfg0.win 7).blk t).view.set := by
  have hi : (i 0).val < 106496 := (i 0).isLt
  have hN : cfg0.N = 13 := N_0
  let t : Fin cfg0.N := ⟨(i 0).val / 8192, by rw [hN]; omega⟩
  obtain ⟨-, -, -, -, -, -, -, -, -, -, -, -, -, -, e0⟩ := idx_facts t
  refine ⟨t, flush0_7 t, ?_⟩
  rw [mem_out_blk]
  intro a
  match a with
  | ⟨0, _⟩ =>
    show win0_7.index t (0 : Fin 1) * 8192 ≤ (i 0).val ∧ (i 0).val < win0_7.index t (0 : Fin 1) * 8192 + 8192
    rw [e0]
    show (i 0).val / 8192 * 8192 ≤ (i 0).val ∧ (i 0).val < (i 0).val / 8192 * 8192 + 8192
    omega

end Cert.KernelIdeal.Reads

end
-- ==== Proof.KBlocks.lean ====
/-
  The padded score vector after the kernel's run.

  Every grid point writes back one block of 8192 scores; entry `r` of the block at point `t` is the specification's
  `score` of row `8192·t + r` of the gathered rows (the body's arithmetic, read at a row, joined to the block reads).
  So each write-back is its block of ONE function of the arrays the region finds, `scoresPad`, and since the 13 blocks
  cover the vector, the vector ends holding `scoresPad`.
-/
import proofs.«405741_j21406117004078_3_alg».proof.Proof.KReads
import proofs.«405741_j21406117004078_3_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.KernelIdeal.Reads Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ)

theorem hz1 : (![0] : Fin 1 → Nat) = fun _ => 0 := funext fun a => by fin_cases a; rfl
theorem hz2 : (![0, 0] : Fin 2 → Nat) = fun _ => 0 := funext fun a => by fin_cases a <;> rfl

/-- What this module takes from the body's arithmetic: the stored payload at row `r` is the specification's score of
    row `r` of the loaded block (the first layer in its split arrangement). -/
def BodyScores : Prop :=
  ∀ (v0 : Vec Ideal S8192x128 .f32) (v2 : Vec Ideal S64x128 .f32) (v21 : Vec Ideal S128x128 .f32)
    (v25 v29 : Vec Ideal S1x128 .f32) (v36 : Vec Ideal S128x128 .f32) (v40 : Vec Ideal S1x128 .f32) (r : Fin 8192),
    k0_pay1 (F := Ideal) (k0_pay2 v0) (k0_pay3 v0 v2 v21 v25 v29) (k0_pay4 v36)
        (constant S8192x128 .f32 0x00000000#32) v40 (ix1 r)
      = Cert.Attn.score (fun d => v0 (ix2 r d)) (fun l d => v2 (ix2 l d))
          (Cert.Attn.preSplit (fun d j => v21 (ix2 d j)) (fun j => v25 (ix2 (0 : Fin 1) j))
            (fun j => v29 (ix2 (0 : Fin 1) j)))
          (fun k j => v36 (ix2 k j)) (fun j => v40 (ix2 (0 : Fin 1) j))

/-- The score of gathered row `a`, from the arrays the region finds. -/
def rowScore (c : Dev nD) (a : Fin 106496) : EReal :=
  Cert.Attn.score (fun d => relArr m c (ix2 a d)) (fun l d => qArr m c (ix2 l d))
    (Cert.Attn.preSplit (fun d j => w1qArr m c (ix2 d j)) (fun j => h1Arr m c (ix2 (0 : Fin 1) j))
      (fun j => b1Arr m c (ix2 (0 : Fin 1) j)))
    (fun k j => w2tArr m c (ix2 k j)) (fun j => b2Arr m c (ix2 (0 : Fin 1) j))

/-- THE PADDED SCORE VECTOR: one score per gathered row. -/
def scoresPad (c : Dev nD) : Vec Ideal S106496 .f32 := fun i => rowScore m c (⟨(i 0).val, (i 0).isLt⟩ : Fin 106496)

/-- WHAT POINT `t` WRITES BACK is block `t` of `scoresPad`. -/
theorem flushed_eq (hbody : BodyScores) (c : Dev nD) (t : Fin cfg0.N) :
    (dats m 0 c).flushed 7 t = ((cfg0.win 7).blk t).view.read (Elt Ideal) (scoresPad m c) := by
  show (cfg0.win 7).cut (grid0.coords t) ((dats m 0 c).after 7 t) = _
  rw [after0_7]
  unfold out0_7
  rw [View.canon_unit_zero hz1]
  simp only [View.ld_unit_zero (S := S8192x128) hz2, View.ld_unit_zero (S := S64x128) hz2,
    View.ld_unit_zero (S := S1x128) hz2, View.ld_unit_zero (S := S128x128) hz2]
  funext j
  obtain ⟨r, rfl⟩ : ∃ r : Fin 8192, j = ix1 r :=
    ⟨⟨(j 0).val, (j 0).isLt⟩, funext fun a => by match a with | ⟨0, _⟩ => rfl⟩
  show k0_pay1 (F := Ideal) (k0_pay2 (blk0 m c t)) (k0_pay3 (blk0 m c t) (blk1 m c t) (blk3 m c t) (blk2 m c t) (blk4 m c t))
      (k0_pay4 (blk5 m c t)) (constant S8192x128 .f32 0x00000000#32) (blk6 m c t) (ix1 r)
    = scoresPad m c (((cfg0.win 7).blk t).view.emb (ix1 r))
  rw [hbody, out_emb]
  show _ = rowScore m c (⟨t.val * 8192 + r.val, by have := t_lt t; omega⟩ : Fin 106496)
  unfold rowScore
  simp only [blk0_apply, blk1_apply, blk2_apply, blk3_apply, blk4_apply, blk5_apply, blk6_apply]

/-- THE PADDED SCORE VECTOR AFTER THE RUN: the 13 write-backs cover it, so it ends holding `scoresPad`. -/
theorem final (hbody : BodyScores) (c : Dev nD) : (dats m 0 c).arrAt 7 cfg0.N = scoresPad m c :=
  (dats m 0 c).arrAt_eq_of_cover 7 (scoresPad m c) (fun t _ => flushed_eq m hbody c t) out_cover

end Cert.KernelIdeal.Blocks

end
-- ==== Proof.KTail.lean ====
/-
  The kernel program's host operations after the launch.

  After the kernel's run the program slices the first 100000 entries off the padded score vector and takes their softmax:
  the specification's `smTail` of the slice. The padded score vector is what the run left in the result array.
-/
import proofs.«405741_j21406117004078_3_alg».proof.Proof.Gen.KernelIdeal.Frame
import proofs.«405741_j21406117004078_3_alg».proof.Proof.Spec
import Idealize.ShloMosaic.Lib.Pipeline.Value
import Idealize.ShloMosaic.Lib.StableHlo.Run

noncomputable section

namespace Cert.KernelIdeal.Tail

open Cert.KernelIdeal Cert.KernelIdeal.Gen Idealize.ShloMosaic Idealize.ShloMosaic.TcCoe Idealize.ShloMosaic.StableHlo
open Idealize.SL.Sem
open Idealize.ShloMosaic.Pipeline (Dat)

variable (m : (ℓ : Loc nD τ sig) → Buf (Elt Ideal) ℓ)

set_option maxHeartbeats 1000000 in
/-- The result buffer after the host operations that follow the launch: the softmax of the first 100000 entries of what
    the run left in the padded score vector. -/
theorem result_eq (c : Dev nD) :
    Pipeline.afterTail₀ cfgs (dats m) 0 (V0 m) [hostOps1] c main_v23
      = Cert.Attn.smTail reducesTo_S100000_S_d0 h_S_ bcast_S_S1 bcast_S1_S100000_0
          (extractStridedSlice S100000 ![0] ((dats m 0 c).arrAt 7 cfg0.N) slices_S106496_S100000_0) := by
  have hw : Pipeline.withArrays spec0 c (V0 m c) (fun w => (dats m 0 c).arrAt w cfg0.N) (Proc.devRef .tc main_v12)
      = (dats m 0 c).arrAt 7 cfg0.N := Pipeline.withArrays_arr spec0 launch0.win.arr_inj c _ _ 7
  unfold Pipeline.afterTail₀
  show StableHlo.after hostOps1 (Pipeline.withArrays spec0 c (V0 m c) (fun w => (dats m 0 c).arrAt w cfg0.N))
      (Proc.devRef .tc main_v23) = _
  rw [← hw]
  -- the operations after the launch read the valuation at the result array only: carry it as a variable
  generalize Pipeline.withArrays spec0 c (V0 m c) (fun w => (dats m 0 c).arrAt w cfg0.N) = W
  after_results_simp
  generalize extractStridedSlice S100000 ![0] (W (Proc.devRef .tc main_v12)) slices_S106496_S100000_0 = s
  rfl

end Cert.KernelIdeal.Tail

end
-- ==== Proof.KPrefix.lean ====
/-
  What the region finds in its operand arrays: the host operations before the kernel launch, read at an index.

  Before the launch the program clips the ids into the table, pads them, and gathers the rows; it forms the history half
  of the first layer (the history vector against the left half of `W1`, transposed), the transposed right half of
  `W1`, the transposed `W2`, and the two biases as rows. Each of those arrays is read here at an index as a
  function of the program's arguments. For an id that is not negative, clipping it into `[0, 499999]` and wrapping it
  (adding the table's length when negative) name the same table row once the gather has clamped: `min id 499999`.
-/
import proofs.«405741_j21406117004078_3_alg».proof.Proof.Gen.KernelIdeal.Frame
import proofs.«405741_j21406117004078_3_alg».proof.Proof.Spec
import proofs.«405741_j21406117004078_3_alg».proof.Proof.LibGatherRows
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

noncomputable section

open scoped BigOperators

namespace Cert.KernelIdeal.Prefix

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The contents of an array the host operations before the launch wrote, as those operations' term. -/
local macro "host_term" : tactic =>
  `(tactic| (dsimp only [Gen.V, Gen.V0]
             simp only [Gen.hostOps0, Gen.hostOps0_1, Gen.hostOps0_2, Gen.hostOps0_3, Gen.hostOps0_4, Gen.hostOps0_5,
               List.flatten_cons, List.flatten_nil, List.append_nil, List.cons_append, List.nil_append]
             after_results_simp))

/-! ## The biases as rows, and the transposed weights -/

/-- The first bias as a row. -/
theorem b1_apply (c : Dev nD) (j : Fin 128) :
    V m c main_v10 (ix2 (0 : Fin 1) j) = m ((c : Thread nD τ).loc main_arg5) (ix1 j) := by
  have e : (V m c main_v10 : S1x128.Idx → EReal)
      = shapeCast S1x128 (m ((c : Thread nD τ).loc main_arg5) : S128.Idx → EReal) shapeCasts_S128_S1x128 := by
    host_term; rfl
  exact (congrFun e _).trans (shapeCast_a_1a_apply _ shapeCasts_S128_S1x128 0 j)

/-- The second bias as a row. -/
theorem b2_apply (c : Dev nD) (j : Fin 128) :
    V m c main_v11 (ix2 (0 : Fin 1) j) = m ((c : Thread nD τ).loc main_arg7) (ix1 j) := by
  have e : (V m c main_v11 : S1x128.Idx → EReal)
      = shapeCast S1x128 (m ((c : Thread nD τ).loc main_arg7) : S128.Idx → EReal) shapeCasts_S128_S1x128 := by
    host_term; rfl
  exact (congrFun e _).trans (shapeCast_a_1a_apply _ shapeCasts_S128_S1x128 0 j)

/-- A square array transposed, read at `(p, q)`: the operand at `(q, p)`. -/
theorem transpose_sq_apply (x : S128x128.Idx → EReal) (p q : Fin 128) :
    transpose S128x128 [1, 0] x transposes_S128x128_S128x128_1_0 (ix2 p q) = x (ix2 q p) :=
  transpose_apply [1, 0] x transposes_S128x128_S128x128_1_0 (ix2 p q) (ix2 q p) (fun b => match b with
    | ⟨0, _⟩ => rfl
    | ⟨1, _⟩ => rfl)

/-- The transposed `W2`, as the region finds it: entry `(k, j)` is `W2[j, k]`. -/
theorem w2t_apply (c : Dev nD) (k j : Fin 128) :
    V m c main_v9 (ix2 k j) = m ((c : Thread nD τ).loc main_arg6) (ix2 j k) := by
  have e : (V m c main_v9 : S128x128.Idx → EReal)
      = transpose S128x128 [1, 0] (m ((c : Thread nD τ).loc main_arg6) : S128x128.Idx → EReal)
          transposes_S128x128_S128x128_1_0 := by
    host_term
  exact (congrFun e _).trans (transpose_sq_apply _ k j)

/-- The left half of a `[128, 256]` array, read at `(p, q)`: the operand at `(p, q)`. -/
theorem leftHalf_apply (x : S128x256.Idx → EReal) (p q : Fin 128) :
    extractStridedSlice S128x128 ![0, 0] x slices_S128x256_S128x128_0_0 (ix2 p q)
      = x (ix2 p (⟨q.val, by omega⟩ : Fin 256)) :=
  extractStridedSlice_apply ![0, 0] x slices_S128x256_S128x128_0_0 (ix2 p q) (ix2 p (⟨q.val, by omega⟩ : Fin 256))
    (fun a => match a with
      | ⟨0, _⟩ => (Nat.zero_add p.val).symm
      | ⟨1, _⟩ => (Nat.zero_add q.val).symm)

/-- The right half of a `[128, 256]` array, read at `(p, q)`: the operand at `(p, 128 + q)`. -/
theorem rightHalf_apply (x : S128x256.Idx → EReal) (p q : Fin 128) :
    extractStridedSlice S128x128 ![0, 128] x slices_S128x256_S128x128_0_128 (ix2 p q)
      = x (ix2 p (⟨128 + q.val, by omega⟩ : Fin 256)) :=
  extractStridedSlice_apply ![0, 128] x slices_S128x256_S128x128_0_128 (ix2 p q) (ix2 p (⟨128 + q.val, by omega⟩ : Fin 256))
    (fun a => match a with
      | ⟨0, _⟩ => (Nat.zero_add p.val).symm
      | ⟨1, _⟩ => rfl)

/-- The transposed right half of `W1`, as the region finds it: entry `(d, j)` is `W1[j, 128 + d]`. -/
theorem w1q_apply (c : Dev nD) (d j : Fin 128) :
    V m c main_v8 (ix2 d j) = Cert.Attn.rightHalfT (fun j k => m ((c : Thread nD τ).loc main_arg4) (ix2 j k)) d j := by
  have e : (V m c main_v8 : S128x128.Idx → EReal)
      = transpose S128x128 [1, 0]
          (extractStridedSlice S128x128 ![0, 128] (m ((c : Thread nD τ).loc main_arg4) : S128x256.Idx → EReal)
            slices_S128x256_S128x128_0_128) transposes_S128x128_S128x128_1_0 := by
    host_term
  exact (congrFun e _).trans ((transpose_sq_apply _ d j).trans (rightHalf_apply _ j d))

/-! ## The history half: a row against a square array -/

theorem lhs_hist_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide),
    dif_pos (show (0 : Fin S1x128.rank) ∈ dot_S1x128_S128x128_S1x128_1_0_0_1_n_n.lhsNonContracting by decide)]
  rfl
theorem lhs_hist_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
theorem rhs_hist_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
theorem rhs_hist_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide),
    dif_pos (show (1 : Fin S128x128.rank) ∈ dot_S1x128_S128x128_S1x128_1_0_0_1_n_n.rhsNonContracting by decide)]
  rfl

/-- A row `[1, 128]` against a `[128, 128]` array, contracted over the row's entries: entry `(0, j)` is
    `∑ k, l (0, k) · r (k, j)`. -/
theorem rowDot_apply (l : FVec Ideal S1x128 .f32) (r : FVec Ideal S128x128 .f32) (j : Fin 128) :
    Host.dotGeneral (F := Ideal) dot_S1x128_S128x128_S1x128_1_0_0_1_n_n none l r (ix2 (0 : Fin 1) j)
      = ∑ k : Fin 128, l (ix2 (0 : Fin 1) k) * r (ix2 k j) := by
  simp only [Host.dotGeneral]
  rw [Ideal.dotGeneral_apply, ← Equiv.sum_comp (ValueIdx.contrEquiv1 dot_S1x128_S128x128_S1x128_1_0_0_1_n_n 128 rfl rfl).symm]
  refine Finset.sum_congr rfl fun k _ => ?_
  have hk := ValueIdx.contrEquiv1_symm_val dot_S1x128_S128x128_S1x128_1_0_0_1_n_n 128 rfl rfl k
  have el : dot_S1x128_S128x128_S1x128_1_0_0_1_n_n.lhsIdx (ix2 (0 : Fin 1) j)
      ((ValueIdx.contrEquiv1 dot_S1x128_S128x128_S1x128_1_0_0_1_n_n 128 rfl rfl).symm k) = ix2 (0 : Fin 1) k :=
    funext fun a => Fin.ext (by
      match a with
      | ⟨0, _⟩ => exact lhs_hist_0 _ _
      | ⟨1, _⟩ => exact (lhs_hist_1 _ _).trans hk)
  have er : dot_S1x128_S128x128_S1x128_1_0_0_1_n_n.rhsIdx (ix2 (0 : Fin 1) j)
      ((ValueIdx.contrEquiv1 dot_S1x128_S128x128_S1x128_1_0_0_1_n_n 128 rfl rfl).symm k) = ix2 k j :=
    funext fun a => Fin.ext (by
      match a with
      | ⟨0, _⟩ => exact (rhs_hist_0 _ _).trans hk
      | ⟨1, _⟩ => exact rhs_hist_1 _ _)
  rw [el, er]

/-- The history half of the first layer, as the region finds it: `∑ k, hist k · W1[j, k]` over the left half. -/
theorem h1_apply (c : Dev nD) (j : Fin 128) :
    V m c main_v6 (ix2 (0 : Fin 1) j)
      = Cert.Attn.histHalf (fun k => m ((c : Thread nD τ).loc main_arg3) (ix1 k))
          (fun j k => m ((c : Thread nD τ).loc main_arg4) (ix2 j k)) j := by
  have e : (V m c main_v6 : S1x128.Idx → EReal)
      = Host.dotGeneral (F := Ideal) dot_S1x128_S128x128_S1x128_1_0_0_1_n_n none
          (shapeCast S1x128 (m ((c : Thread nD τ).loc main_arg3) : S128.Idx → EReal) shapeCasts_S128_S1x128
            : FVec Ideal S1x128 .f32)
          (transpose S128x128 [1, 0]
            (extractStridedSlice S128x128 ![0, 0] (m ((c : Thread nD τ).loc main_arg4) : S128x256.Idx → EReal)
              slices_S128x256_S128x128_0_0) transposes_S128x128_S128x128_1_0 : FVec Ideal S128x128 .f32) := by
    host_term; rfl
  refine (congrFun e _).trans ((rowDot_apply _ _ j).trans ?_)
  unfold Cert.Attn.histHalf
  refine Finset.sum_congr rfl fun k _ => ?_
  rw [shapeCast_a_1a_apply _ shapeCasts_S128_S1x128 0 k, transpose_sq_apply _ k j, leftHalf_apply _ j k]

/-! ## The gathered rows

Word level first: the signed maximum and minimum as integers, the clipped id, the wrap's compare on a word that is not
negative, and the in-range test on a word inside the table. -/

theorem toInt_maxsi (x y : BitVec 32) : (IntOp.maxsi x y).toInt = max x.toInt y.toInt := by
  unfold IntOp.maxsi
  by_cases h : y.toInt < x.toInt
  · rw [if_pos (BitVec.slt_iff_toInt_lt.2 h)]; omega
  · rw [if_neg (fun hh => h (BitVec.slt_iff_toInt_lt.1 hh))]; omega

theorem toInt_minsi (x y : BitVec 32) : (IntOp.minsi x y).toInt = min x.toInt y.toInt := by
  unfold IntOp.minsi
  by_cases h : x.toInt < y.toInt
  · rw [if_pos (BitVec.slt_iff_toInt_lt.2 h)]; omega
  · rw [if_neg (fun hh => h (BitVec.slt_iff_toInt_lt.1 hh))]; omega

theorem toInt_zero32 : (0#32 : BitVec 32).toInt = 0 := by decide
theorem toInt_last32 : (499999#32 : BitVec 32).toInt = 499999 := by decide

/-- An id word clipped into the table: the signed minimum with `499999` of the signed maximum with `0`. -/
def clipW (w : BitVec 32) : BitVec 32 := IntOp.minsi 499999#32 (IntOp.maxsi 0#32 w)

theorem clipW_toInt (w : BitVec 32) : (clipW w).toInt = min 499999 (max 0 w.toInt) := by
  unfold clipW
  rw [toInt_minsi, toInt_maxsi, toInt_zero32, toInt_last32]

/-- A word that is not negative fails the wrap's test `· < 0`. -/
theorem cmpi_slt_zero (v : BitVec 32) (h : 0 ≤ v.toInt) : IntOp.cmpi .slt v 0#32 = 0#1 := by
  show BitVec.ofBool (v.slt 0#32) = 0#1
  rw [BitVec.slt_eq_decide, toInt_zero32, decide_eq_false (by omega)]
  rfl

/-- A word inside the table passes the in-range test `0 ≤ · ≤ 499999`. -/
theorem inTable_one (v : BitVec 32) (h0 : 0 ≤ v.toInt) (h1 : v.toInt ≤ 499999) :
    IntOp.andi (IntOp.cmpi .sge v 0#32) (IntOp.cmpi .sle v 499999#32) = 1#1 := by
  show IntOp.andi (BitVec.ofBool ((0#32 : BitVec 32).sle v)) (BitVec.ofBool (v.sle 499999#32)) = 1#1
  rw [BitVec.sle_eq_decide, BitVec.sle_eq_decide, toInt_zero32, toInt_last32, decide_eq_true h0, decide_eq_true h1]
  rfl

/-- A left fold by `and` from the bit `1` over words that are all `1` is `1`. -/
theorem foldl_andi_one {ι : Type} (x : ι → BitVec 1) (l : List ι) (hl : ∀ i ∈ l, x i = 1#1) :
    l.foldl (fun r i => IntOp.andi r (x i)) 1#1 = 1#1 := by
  induction l with
  | nil => rfl
  | cons i l ih =>
    rw [List.foldl_cons, hl i (List.mem_cons_self ..), show IntOp.andi 1#1 1#1 = 1#1 from rfl]
    exact ih (fun i hi => hl i (List.mem_cons_of_mem _ hi))

/-- An `and`-reduction from the bit `1` of an array whose every entry is `1` is `1` at every index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun i _ => hx i)

/-! The arrays between the ids and the gathered rows, as functions of the ids. -/

/-- The ids clipped into the table. -/
def clipped (ids : IVec S100000 32) : IVec S100000 32 :=
  minsi (broadcastInDim S100000 ![] bcast_S_S100000 (constantI S_ 32 499999#32))
    (maxsi (broadcastInDim S100000 ![] bcast_S_S100000 (constantI S_ 32 0#32)) ids)

/-- The clipped ids padded with zeros to `106496` entries. -/
def padded (ids : IVec S100000 32) : IVec S106496 32 :=
  pad S106496 ![0] ![6496] ![0] (clipped ids) (constantI S_ 32 0#32) pads_S100000_S106496_064960 h_S_

/-- The padded ids with a negative entry wrapped around the table. -/
def wrapped (ids : IVec S100000 32) : IVec S106496 32 :=
  select (cmpi .slt (padded ids) (broadcastInDim S106496 ![] bcast_S_S106496 (constantI S_ 32 0#32)))
    (addi (padded ids) (broadcastInDim S106496 ![] bcast_S_S106496 (constantI S_ 32 500000#32)))
    (padded ids)

/-- The wrapped ids as a column. -/
def column (ids : IVec S100000 32) : IVec S106496x1 32 :=
  broadcastInDim S106496x1 ![0] bcast_S106496_S106496x1_0 (wrapped ids)

/-- The gather's in-range test of every row id. -/
def inRange (ids : IVec S100000 32) : IVec S106496 1 :=
  Host.reduce IntOp.andi
    (andi (cmpi .sge (column ids) (broadcastInDim S106496x1 ![] bcast_S_S106496x1 (constantI S_ 32 0#32)))
      (cmpi .sle (column ids) (broadcastInDim S106496x1 ![0, 1] bcast_S1x1_S106496x1_0_1
        (broadcastInDim S1x1 ![1] bcast_S1_S1x1_1 (constantI S1 32 499999#32)))))
    (constantI S_ 1 1#1) reducesTo_S106496x1_S106496_d1 h_S_

/-- The rows taken from the table: the gather where the id is in range, the fill word elsewhere. -/
def taken (ids : IVec S100000 32) (tbl : FVec Ideal S500000x128 .f32) : FVec Ideal S106496x128 .f32 :=
  select (broadcastInDim S106496x128 ![0] bcast_S106496_S106496x128_0 (inRange ids))
    (Host.gather gather_S500000x128_S106496x1_S106496x128_1_0_n_n_0_1_1128 tbl (column ids))
    (broadcastInDim S106496x128 ![] bcast_S_S106496x128 (constant (F := Ideal) S_ .f32 0x7FC00000#32))

theorem clipped_apply (ids : IVec S100000 32) (a : Fin 100000) : clipped ids (ix1 a) = clipW (ids (ix1 a)) := rfl

/-- Below `100000` the padded array is the clipped one. -/
theorem padded_inside (ids : IVec S100000 32) (a : Fin 100000) :
    padded ids (ix1 (⟨a.val, by omega⟩ : Fin 106496)) = clipW (ids (ix1 a)) := by
  unfold padded
  exact pad_apply_of_inside ![0] ![6496] ![0] (clipped ids) _ pads_S100000_S106496_064960 h_S_
    (ix1 (⟨a.val, by omega⟩ : Fin 106496)) (ix1 a) (fun b => match b with
      | ⟨0, _⟩ => by show a.val = 0 + a.val * (0 + 1); omega)

/-- From `100000` on the padded array is zero. -/
theorem padded_outside (ids : IVec S100000 32) (r : Fin 106496) (hr : 100000 ≤ r.val) :
    padded ids (ix1 r) = 0#32 := by
  unfold padded
  exact pad_apply_of_not_inside ![0] ![6496] ![0] (clipped ids) _ pads_S100000_S106496_064960 h_S_ (ix1 r) (0 : Fin 1)
    (by show ¬(0 ≤ r.val ∧ (r.val - 0) % (0 + 1) = 0 ∧ (r.val - 0) / (0 + 1) < 100000); omega)

/-- Every padded entry is inside the table. -/
theorem padded_range (ids : IVec S100000 32) (r : Fin 106496) :
    0 ≤ (padded ids (ix1 r)).toInt ∧ (padded ids (ix1 r)).toInt ≤ 499999 := by
  by_cases hr : r.val < 100000
  · have e := padded_inside ids ⟨r.val, hr⟩
    rw [show (⟨(⟨r.val, hr⟩ : Fin 100000).val, by omega⟩ : Fin 106496) = r from rfl] at e
    rw [e, clipW_toInt]; omega
  · rw [padded_outside ids r (by omega), toInt_zero32]; omega

/-- No padded entry is negative, so the wrap keeps it. -/
theorem wrapped_apply (ids : IVec S100000 32) (r : Fin 106496) : wrapped ids (ix1 r) = padded ids (ix1 r) := by
  show Scalar.select (IntOp.cmpi .slt (padded ids (ix1 r)) 0#32) (IntOp.addi (padded ids (ix1 r)) 500000#32)
    (padded ids (ix1 r)) = _
  rw [cmpi_slt_zero _ (padded_range ids r).1, select_zero]

theorem column_apply (ids : IVec S100000 32) (r : Fin 106496) (u : Fin 1) :
    column ids (ix2 r u) = padded ids (ix1 r) := by
  unfold column
  refine (broadcastInDim_apply ![0] bcast_S106496_S106496x1_0 (wrapped ids) (ix2 r u) (ix1 r) (fun b => match b with
    | ⟨0, _⟩ => by show r.val = if (106496 : Nat) = 1 then 0 else r.val; rw [if_neg (by decide)])).trans ?_
  exact wrapped_apply ids r

/-- The in-range test passes at every row. -/
theorem inRange_apply (ids : IVec S100000 32) (r : Fin 106496) : inRange ids (ix1 r) = 1#1 := by
  unfold inRange
  refine reduce_andi_one _ _ reducesTo_S106496x1_S106496_d1 h_S_ (ix1 r) rfl (fun i => ?_)
  obtain ⟨p, q, rfl⟩ : ∃ (p : Fin 106496) (q : Fin 1), i = ix2 p q := ⟨i 0, i 1, eq_ix2 i⟩
  show IntOp.andi (IntOp.cmpi .sge (column ids (ix2 p q)) 0#32) (IntOp.cmpi .sle (column ids (ix2 p q)) 499999#32) = 1#1
  rw [column_apply]
  exact inTable_one _ (padded_range ids p).1 (padded_range ids p).2

/-- The taken rows at `(r, d)`: the table at the clamped padded id of row `r`. -/
theorem taken_apply (ids : IVec S100000 32) (tbl : FVec Ideal S500000x128 .f32) (r : Fin 106496) (d : Fin 128) :
    taken ids tbl (ix2 r d)
      = tbl (ix2 (Cert.LibGatherRows.clampRow 500000 (by decide) (padded ids (ix1 r))) d) := by
  have hm : broadcastInDim S106496x128 ![0] bcast_S106496_S106496x128_0 (inRange ids) (ix2 r d) = 1#1 :=
    (broadcastInDim_apply ![0] bcast_S106496_S106496x128_0 (inRange ids) (ix2 r d) (ix1 r) (fun b => match b with
      | ⟨0, _⟩ => by show r.val = if (106496 : Nat) = 1 then 0 else r.val; rw [if_neg (by decide)])).trans
      (inRange_apply ids r)
  unfold taken
  rw [select_apply, hm, select_one]
  refine (Cert.LibGatherRows.gather_rows_apply (by decide)
    gather_S500000x128_S106496x1_S106496x128_1_0_n_n_0_1_1128.wf tbl (column ids) r d).trans ?_
  rw [column_apply]

/-- For an id that is not negative the clamped clipped id is the wrapped, clamped id. -/
theorem clampRow_clipW (w : BitVec 32) (hpos : 0 ≤ w.toInt) :
    Cert.LibGatherRows.clampRow 500000 (by decide) (clipW w) = Cert.Attn.wrapRow w := by
  refine Fin.ext ?_
  show min (clipW w).toInt.toNat (500000 - 1) = min (if w.slt 0#32 then w + 500000#32 else w).toInt.toNat 499999
  rw [if_neg (fun hh => by have := BitVec.slt_iff_toInt_lt.1 hh; rw [toInt_zero32] at this; omega), clipW_toInt]
  omega

/-- THE GATHERED ROWS: for an action `a` whose id is not negative, row `a` of the gathered array is the table's row
    `wrapRow id` (which for such an id is `min id 499999`). -/
theorem rel_apply (c : Dev nD) (a : Fin 100000) (d : Fin 128)
    (hpos : 0 ≤ (m ((c : Thread nD τ).loc main_arg0) (ix1 a)).toInt) :
    V m c main_v2 (ix2 (⟨a.val, by omega⟩ : Fin 106496) d)
      = m ((c : Thread nD τ).loc main_arg1) (ix2 (Cert.Attn.wrapRow (m ((c : Thread nD τ).loc main_arg0) (ix1 a))) d) := by
  have e : (V m c main_v2 : S106496x128.Idx → EReal)
      = taken (m ((c : Thread nD τ).loc main_arg0) : IVec S100000 32)
          (m ((c : Thread nD τ).loc main_arg1) : FVec Ideal S500000x128 .f32) := by
    host_term
    simp only [StableHlo.TRef.ofBuf, StableHlo.TRef.toBuf, cast_eq]
    rfl
  refine (congrFun e _).trans ((taken_apply _ _ _ d).trans ?_)
  rw [padded_inside, clampRow_clipW _ hpos]

end Cert.KernelIdeal.Prefix

end
-- ==== Proof.Bridge.lean ====
/-
  One action's score is the same on both sides.

  From the arrays the region finds, the kernel's score of action `a` is the specification's `score` of gathered row `a`
  with the first layer split. Read back to the program's arguments — the gathered row is table row `wrapRow id` because
  the id is not negative, the history half and the transposed weights are the two halves of `W1` — it is the score
  with the first layer as one 256-term sum: the two arrangements are one function.
-/
import proofs.«405741_j21406117004078_3_alg».proof.Proof.KBlocks
import proofs.«405741_j21406117004078_3_alg».proof.Proof.KPrefix
import proofs.«405741_j21406117004078_3_alg».proof.Proof.Spec

noncomputable section

namespace Cert.KernelIdeal.Bridge

open Cert.KernelIdeal Cert.KernelIdeal.Gen Cert.KernelIdeal.Reads Idealize.ShloMosaic Idealize.ShloMosaic.TcCoe
open Idealize.ShloMosaic.ValueIdx Idealize.SL.Sem

variable (m : (ℓ : Loc nD τ sig) → Buf (Elt Ideal) ℓ)

/-- THE KERNEL'S SCORE OF ACTION `a`, in the program's arguments: for an id that is not negative, the score of table
    row `wrapRow id` with the first layer as ONE 256-term sum. -/
theorem rowScore_eq (c : Dev nD) (a : Fin 100000)
    (hpos : 0 ≤ (m ((c : Thread nD τ).loc main_arg0) (ix1 a)).toInt) :
    Blocks.rowScore m c (⟨a.val, by omega⟩ : Fin 106496)
      = Cert.Attn.score
          (fun d => m ((c : Thread nD τ).loc main_arg1) (ix2 (Cert.Attn.wrapRow (m ((c : Thread nD τ).loc main_arg0) (ix1 a))) d))
          (fun l d => m ((c : Thread nD τ).loc main_arg2) (ix2 l d))
          (Cert.Attn.preWhole (fun k => m ((c : Thread nD τ).loc main_arg3) (ix1 k))
            (fun j k => m ((c : Thread nD τ).loc main_arg4) (ix2 j k)) (fun j => m ((c : Thread nD τ).loc main_arg5) (ix1 j)))
          (fun k j => m ((c : Thread nD τ).loc main_arg6) (ix2 j k))
          (fun j => m ((c : Thread nD τ).loc main_arg7) (ix1 j)) := by
  unfold Blocks.rowScore
  have e0 : (fun d => relArr m c (ix2 (⟨a.val, by omega⟩ : Fin 106496) d))
      = fun d => m ((c : Thread nD τ).loc main_arg1) (ix2 (Cert.Attn.wrapRow (m ((c : Thread nD τ).loc main_arg0) (ix1 a))) d) :=
    funext fun d => Prefix.rel_apply m c a d hpos
  have e1 : (fun (l : Fin 64) (d : Fin 128) => qArr m c (ix2 l d))
      = fun l d => m ((c : Thread nD τ).loc main_arg2) (ix2 l d) :=
    funext fun l => funext fun d => congrFun (V_main_arg2 m c) (ix2 l d)
  have e2 : (fun (d j : Fin 128) => w1qArr m c (ix2 d j))
      = Cert.Attn.rightHalfT (fun j k => m ((c : Thread nD τ).loc main_arg4) (ix2 j k)) :=
    funext fun d => funext fun j => Prefix.w1q_apply m c d j
  have e3 : (fun j : Fin 128 => h1Arr m c (ix2 (0 : Fin 1) j))
      = Cert.Attn.histHalf (fun k => m ((c : Thread nD τ).loc main_arg3) (ix1 k))
          (fun j k => m ((c : Thread nD τ).loc main_arg4) (ix2 j k)) :=
    funext fun j => Prefix.h1_apply m c j
  have e4 : (fun j : Fin 128 => b1Arr m c (ix2 (0 : Fin 1) j)) = fun j => m ((c : Thread nD τ).loc main_arg5) (ix1 j) :=
    funext fun j => Prefix.b1_apply m c j
  have e5 : (fun (k j : Fin 128) => w2tArr m c (ix2 k j)) = fun k j => m ((c : Thread nD τ).loc main_arg6) (ix2 j k) :=
    funext fun k => funext fun j => Prefix.w2t_apply m c k j
  have e6 : (fun j : Fin 128 => b2Arr m c (ix2 (0 : Fin 1) j)) = fun j => m ((c : Thread nD τ).loc main_arg7) (ix1 j) :=
    funext fun j => Prefix.b2_apply m c j
  rw [e0, e1, e2, e3, e4, e5, e6]
  have law : Cert.Attn.preSplit (Cert.Attn.rightHalfT (fun j k => m ((c : Thread nD τ).loc main_arg4) (ix2 j k)))
      (Cert.Attn.histHalf (fun k => m ((c : Thread nD τ).loc main_arg3) (ix1 k))
        (fun j k => m ((c : Thread nD τ).loc main_arg4) (ix2 j k)))
      (fun j => m ((c : Thread nD τ).loc main_arg5) (ix1 j))
      = Cert.Attn.preWhole (fun k => m ((c : Thread nD τ).loc main_arg3) (ix1 k))
          (fun j k => m ((c : Thread nD τ).loc main_arg4) (ix2 j k)) (fun j => m ((c : Thread nD τ).loc main_arg5) (ix1 j)) :=
    funext fun v => Cert.Attn.preSplit_eq_preWhole _ _ _ v
  rw [law]

end Cert.KernelIdeal.Bridge

end
-- ==== Proof.PreDecode.lean ====
/-
  What the precondition says about the ids: every one of the 100000 action ids is a non-negative signed integer.

  The printed precondition is a conjunction of one-bit words; its last conjunct is `all (ids ≥ 0)` (a signed compare of
  the id vector against the zero vector, reduced by `and`). Read at an index it gives `0 ≤ id.toInt`.
-/
import proofs.«405741_j21406117004078_3_alg».proof.Defs
import proofs.«405741_j21406117004078_3_alg».proof.Proof.Gen.KernelIdeal
import proofs.«405741_j21406117004078_3_alg».proof.Proof.Gen.Pre_finite_inputs
import Idealize.ShloMosaic.Lib.ValueIdx
import Idealize.ShloMosaic.Lib.ReduceAll
import Idealize.ShloMosaic.Lib.StableHlo.Predicate

noncomputable section

namespace Cert.Proof.PreDecode

open Idealize.ShloMosaic Idealize.ShloMosaic.TcCoe Idealize.ShloMosaic.ValueIdx Idealize.SL.Sem
open Cert.Pre_finite_inputs Cert.Pre_finite_inputs.Gen

/-- A scalar has one index. -/
instance : Subsingleton S_.Idx := ⟨fun a b => funext fun d => d.elim0⟩

/-- The last conjunct of the printed precondition, read at an id: if `all (ids ≥ 0)` is the one-bit word 1, every id is
    at least zero as a signed integer. -/
theorem nonneg_of_all (ids : IVec S100000 32)
    (h : Host.reduce IntOp.andi (cmpi .sge ids (broadcastInDim S100000 ![] bcast_S_S100000 (constantI S_ 32 0#32)))
      (constantI S_ 1 1#1) reducesTo_S100000_S_d0 h_S_ ix0 = 1#1) (a : Fin 100000) : 0 ≤ (ids (ix1 a)).toInt := by
  have hc := Host.reduce_andi_all _ _ _ _ _ h (ix1 a)
  have hle : (0#32 : BitVec 32).toInt ≤ (ids (ix1 a)).toInt := IntOp.cmpi_sge.1 hc
  simpa using hle

/-- Under the precondition every action id, read signed, is at least zero. -/
theorem ids_nonneg (m : (ℓ : Loc Cert.KernelIdeal.nD Cert.KernelIdeal.τ Cert.KernelIdeal.sig) → Buf (Elt Ideal) ℓ)
    (hpre : Cert.Pre_KernelIdeal m) (c : Dev Cert.KernelIdeal.nD) (a : Fin 100000) :
    0 ≤ (m ((c.tc : Thread Cert.KernelIdeal.nD Cert.KernelIdeal.τ).loc Cert.KernelIdeal.main_arg0) (ix1 a)).toInt := by
  have e := congrFun (hpre c) ix0
  -- the precondition is a conjunction whose last conjunct is `all (ids ≥ 0)`
  have e2 : ∃ rest : BitVec 1, IntOp.andi rest
      (Host.reduce IntOp.andi (cmpi .sge (m ((c.tc : Thread Cert.KernelIdeal.nD Cert.KernelIdeal.τ).loc Cert.KernelIdeal.main_arg0))
        (broadcastInDim S100000 ![] bcast_S_S100000 (constantI S_ 32 0#32))) (constantI S_ 1 1#1) reducesTo_S100000_S_d0 h_S_ ix0) = 1#1 :=
    ⟨_, e⟩
  obtain ⟨rest, e3⟩ := e2
  exact nonneg_of_all _ (IntOp.andi_eq_one.1 e3).2 a

end Cert.Proof.PreDecode

end
-- ==== Proof.lean ====
/-
  The certificate's five claims.

  The kernel program clips the action ids into the table, gathers one table row per action, and in a kernel of 13 grid
  points computes, for every gathered row, an attention over the 64 question tokens, a two-layer perceptron on
  [history; attended] and the row's product with the result, summed; the host takes the softmax of the first 100000
  scores. The reference does the same with plain array operations, indexing the table with the raw ids.

  The precondition adds to the finiteness of the float inputs that no action id is negative. Under it both programs read
  the same table row for every action (`min id 499999`), and each action's score is one function of that row on both
  sides: the kernel's split of the first layer into a history half, computed once, and an attended half is the
  reference's single 256-term sum, because addition on the extended reals is commutative and associative. The final
  softmax is the same ten operations on both sides and is never opened.

  The frames of the two kernel programs are the generated frame certificates; the reference's frame is its run with the
  result dropped; the idealization changed nothing, so `preserves` is trivial.
-/
import proofs.«405741_j21406117004078_3_alg».proof.Defs
import proofs.«405741_j21406117004078_3_alg».proof.Proof.Gen.Kernel
import proofs.«405741_j21406117004078_3_alg».proof.Proof.Gen.Kernel.Skeleton
import proofs.«405741_j21406117004078_3_alg».proof.Proof.Gen.Kernel.Launch
import proofs.«405741_j21406117004078_3_alg».proof.Proof.Gen.Kernel.Points
import proofs.«405741_j21406117004078_3_alg».proof.Proof.Gen.Kernel.Frame
import proofs.«405741_j21406117004078_3_alg».proof.Proof.Gen.KernelIdeal
import proofs.«405741_j21406117004078_3_alg».proof.Proof.Gen.KernelIdeal.Skeleton
import proofs.«405741_j21406117004078_3_alg».proof.Proof.Gen.KernelIdeal.Launch
import proofs.«405741_j21406117004078_3_alg».proof.Proof.Gen.KernelIdeal.Points
import proofs.«405741_j21406117004078_3_alg».proof.Proof.Gen.KernelIdeal.Frame
import proofs.«405741_j21406117004078_3_alg».proof.Proof.Gen.ReferenceIdeal
import proofs.«405741_j21406117004078_3_alg».proof.Proof.Gen.Pre_finite_inputs
import proofs.«405741_j21406117004078_3_alg».proof.Proof.RefRun
import proofs.«405741_j21406117004078_3_alg».proof.Proof.RefRead
import proofs.«405741_j21406117004078_3_alg».proof.Proof.RefScores
import proofs.«405741_j21406117004078_3_alg».proof.Proof.KBody
import proofs.«405741_j21406117004078_3_alg».proof.Proof.KBlocks
import proofs.«405741_j21406117004078_3_alg».proof.Proof.KTail
import proofs.«405741_j21406117004078_3_alg».proof.Proof.Bridge
import proofs.«405741_j21406117004078_3_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-! ## The kernel program's run, with its result named -/

section KernelRun

open Cert.KernelIdeal Cert.KernelIdeal.Gen

/-- The body's arithmetic at a row, in the form the blocks-to-array step takes it. -/
theorem bodyScores : Cert.KernelIdeal.Blocks.BodyScores :=
  fun v0 v2 v21 v25 v29 v36 v40 r => Cert.KernelIdeal.Body.payload_score v0 v2 v21 v25 v29 v36 v40 r

/-- The kernel program's result: the softmax of the first 100000 entries of the padded score vector. -/
def kernelResult (m : (ℓ : Loc nD τ sig) → Buf (Elt Ideal) ℓ) (c : Dev nD) : Buf (Elt Ideal) ((c.tc : Thread nD τ).loc main_v23) :=
  Cert.Attn.smTail reducesTo_S100000_S_d0 h_S_ bcast_S_S1 bcast_S1_S100000_0
    (extractStridedSlice S100000 ![0] (Cert.KernelIdeal.Blocks.scoresPad m c) slices_S106496_S100000_0)

/-- Every weakly fair execution of the kernel program terminates with the result buffer at `kernelResult` and the
    arguments unchanged: the frame run, its result buffer read through the host operations after the launch and the
    padded score vector through the 13 write-backs. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v23) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v23 (Pipeline.mem_restRefs_of main_v23 (by decide) (by decide))).trans
        ((Cert.KernelIdeal.Tail.result_eq m c).trans (by unfold kernelResult; rw [Cert.KernelIdeal.Blocks.final m bodyScores c])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end KernelRun

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- From memories agreeing on the arguments, under the precondition, both programs end at `kernelResult`: the reference's
    result is the softmax of its scores, each of which is the kernel's score of the same action. -/
theorem algebraic : Cert.algebraic_KernelIdeal_ReferenceIdeal := by
  intro m ρ m' ρ' hpre hagree
  refine ⟨kernelResult m, kernel_run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v44_eq, Cert.ReferenceIdeal.Scores.result_eq_tail]
  unfold kernelResult
  refine congrArg (Cert.Attn.smTail _ _ _ _) ?_
  funext i
  obtain ⟨a, rfl⟩ : ∃ a : Fin 100000, i = ix1 a := ⟨i 0, eq_ix1 i⟩
  rw [Cert.ReferenceIdeal.Scores.scores_apply, (hagree c).1, (hagree c).2.1, (hagree c).2.2.1, (hagree c).2.2.2.1,
    (hagree c).2.2.2.2.1, (hagree c).2.2.2.2.2.1, (hagree c).2.2.2.2.2.2.1, (hagree c).2.2.2.2.2.2.2]
  refine Eq.symm ((extractStridedSlice_apply _ _ _ (ix1 a) (ix1 (⟨a.val, by omega⟩ : Fin 106496))
    (fun ax => by match ax with | ⟨0, _⟩ => show a.val = 0 + a.val; omega)).trans ?_)
  exact Cert.KernelIdeal.Bridge.rowScore_eq m c a (Cert.Proof.PreDecode.ids_nonneg m hpre c a)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
